-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512 : Shape := ⟨2, ![2, 512]⟩
abbrev S1025x128 : Shape := ⟨2, ![1025, 128]⟩
abbrev S128x256 : Shape := ⟨2, ![128, 256]⟩
abbrev S128 : Shape := ⟨1, ![128]⟩
abbrev S_ : Shape := ⟨0, ![]⟩
abbrev S2x512x1 : Shape := ⟨3, ![2, 512, 1]⟩
abbrev S2x1x512 : Shape := ⟨3, ![2, 1, 512]⟩
abbrev S2x512x512 : Shape := ⟨3, ![2, 512, 512]⟩

class Facts : Prop where
  bcast_S_S1025x128 : S_.BroadcastsInDim S1025x128 (![] : Fin 0 → Fin S1025x128.rank)
  reducesTo_S1025x128_S_d0_1 : S1025x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S2x512_S2x512x1_0_1 : S2x512.BroadcastsInDim S2x512x1 (![0, 1] : Fin 2 → Fin S2x512x1.rank)
  bcast_S2x512_S2x1x512_0_2 : S2x512.BroadcastsInDim S2x1x512 (![0, 2] : Fin 2 → Fin S2x1x512.rank)
  bcast_S2x512x1_S2x512x512_0_1_2 : S2x512x1.BroadcastsInDim S2x512x512 (![0, 1, 2] : Fin 3 → Fin S2x512x512.rank)
  bcast_S2x1x512_S2x512x512_0_1_2 : S2x1x512.BroadcastsInDim S2x512x512 (![0, 1, 2] : Fin 3 → Fin S2x512x512.rank)
  bcast_S_S2x512x512 : S_.BroadcastsInDim S2x512x512 (![] : Fin 0 → Fin S2x512x512.rank)
  reducesTo_S2x512x512_S_d0_1_2 : S2x512x512.ReducesTo [0, 1, 2] S_

variable [Facts]

def fn_part3 {F : FTy → Type} [FloatOps F] (main_v42 : IVec S_ 1) (main_v49 : IVec S2x512x512 32) (main_v51 : IVec S2x512x512 1) (main_v52 : IVec S2x512x512 32) : IVec S_ 1 :=
  let main_v53 : IVec S2x512x512 1 := cmpi .slt main_v49 main_v52
  let main_v54 : IVec S2x512x512 1 := andi main_v51 main_v53
  let main_c_17 : IVec S_ 1 := constantI S_ 1 1#1
  let main_v55 : IVec S_ 1 := (fun x v => Host.reduce IntOp.andi x v reducesTo_S2x512x512_S_d0_1_2 h_S_) main_v54 main_c_17
  let main_v56 : IVec S_ 1 := andi main_v42 main_v55
  main_v56

def fn_part2 {F : FTy → Type} [FloatOps F] (main_arg1 : IVec S2x512 32) (main_v28 : IVec S_ 1) (main_v33 : IVec S2x512x512 32) (main_v34 : IVec S2x512x512 32) : IVec S_ 1 :=
  let main_v35 : IVec S2x512x512 32 := addi main_v33 main_v34
  let main_c_11 : IVec S_ 32 := constantI S_ 32 0#32
  let main_v36 : IVec S2x512x512 32 := broadcastInDim S2x512x512 ![] bcast_S_S2x512x512 main_c_11
  let main_v37 : IVec S2x512x512 1 := cmpi .sge main_v35 main_v36
  let main_c_12 : IVec S_ 32 := constantI S_ 32 1025#32
  let main_v38 : IVec S2x512x512 32 := broadcastInDim S2x512x512 ![] bcast_S_S2x512x512 main_c_12
  let main_v39 : IVec S2x512x512 1 := cmpi .slt main_v35 main_v38
  let main_v40 : IVec S2x512x512 1 := andi main_v37 main_v39
  let main_c_13 : IVec S_ 1 := constantI S_ 1 1#1
  let main_v41 : IVec S_ 1 := (fun x v => Host.reduce IntOp.andi x v reducesTo_S2x512x512_S_d0_1_2 h_S_) main_v40 main_c_13
  let main_v42 : IVec S_ 1 := andi main_v28 main_v41
  let main_v43 : IVec S2x512x1 32 := broadcastInDim S2x512x1 ![0, 1] bcast_S2x512_S2x512x1_0_1 main_arg1
  let main_v44 : IVec S2x1x512 32 := broadcastInDim S2x1x512 ![0, 2] bcast_S2x512_S2x1x512_0_2 main_arg1
  let main_v45 : IVec S2x512x512 32 := broadcastInDim S2x512x512 ![0, 1, 2] bcast_S2x512x1_S2x512x512_0_1_2 main_v43
  let main_v46 : IVec S2x512x512 32 := broadcastInDim S2x512x512 ![0, 1, 2] bcast_S2x1x512_S2x512x512_0_1_2 main_v44
  let main_v47 : IVec S2x512x512 32 := subi main_v45 main_v46
  let main_c_14 : IVec S_ 32 := constantI S_ 32 512#32
  let main_v48 : IVec S2x512x512 32 := broadcastInDim S2x512x512 ![] bcast_S_S2x512x512 main_c_14
  let main_v49 : IVec S2x512x512 32 := addi main_v47 main_v48
  let main_c_15 : IVec S_ 32 := constantI S_ 32 0#32
  let main_v50 : IVec S2x512x512 32 := broadcastInDim S2x512x512 ![] bcast_S_S2x512x512 main_c_15
  let main_v51 : IVec S2x512x512 1 := cmpi .sge main_v49 main_v50
  let main_c_16 : IVec S_ 32 := constantI S_ 32 1025#32
  let main_v52 : IVec S2x512x512 32 := broadcastInDim S2x512x512 ![] bcast_S_S2x512x512 main_c_16
  fn_part3 (F := F) main_v42 main_v49 main_v51 main_v52

def fn_part1 {F : FTy → Type} [FloatOps F] (main_arg0 : IVec S2x512 32) (main_arg1 : IVec S2x512 32) (main_arg6 : FVec F S128x256 .f32) (main_arg7 : FVec F S128 .f32) (main_v13 : IVec S_ 1) (main_v16 : IVec S1025x128 1) : IVec S_ 1 :=
  let main_c_5 : IVec S_ 1 := constantI S_ 1 1#1
  let main_v17 : IVec S_ 1 := (fun x v => Host.reduce IntOp.andi x v reducesTo_S1025x128_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S2x512x1 32 := broadcastInDim S2x512x1 ![0, 1] bcast_S2x512_S2x512x1_0_1 main_arg0
  let main_v30 : IVec S2x1x512 32 := broadcastInDim S2x1x512 ![0, 2] bcast_S2x512_S2x1x512_0_2 main_arg0
  let main_v31 : IVec S2x512x512 32 := broadcastInDim S2x512x512 ![0, 1, 2] bcast_S2x512x1_S2x512x512_0_1_2 main_v29
  let main_v32 : IVec S2x512x512 32 := broadcastInDim S2x512x512 ![0, 1, 2] bcast_S2x1x512_S2x512x512_0_1_2 main_v30
  let main_v33 : IVec S2x512x512 32 := subi main_v31 main_v32
  let main_c_10 : IVec S_ 32 := constantI S_ 32 512#32
  let main_v34 : IVec S2x512x512 32 := broadcastInDim S2x512x512 ![] bcast_S_S2x512x512 main_c_10
  fn_part2 (F := F) main_arg1 main_v28 main_v33 main_v34

def fn {F : FTy → Type} [FloatOps F] (main_arg0 : IVec S2x512 32) (main_arg1 : IVec S2x512 32) (main_arg2 : FVec F S1025x128 .f32) (main_arg3 : FVec F S1025x128 .f32) (main_arg4 : FVec F S1025x128 .f32) (main_arg5 : FVec F S1025x128 .f32) (main_arg6 : FVec F S128x256 .f32) (main_arg7 : FVec F S128 .f32) : IVec S_ 1 :=
  let main_v0 : FVec F S1025x128 .f32 := Host.absf main_arg2
  let main_cst : FVec F S_ .f32 := constant S_ .f32 0x7F800000#32
  let main_v1 : FVec F S1025x128 .f32 := broadcastInDim S1025x128 ![] bcast_S_S1025x128 main_cst
  let main_v2 : IVec S1025x128 1 := cmpf .olt main_v0 main_v1
  let main_c : IVec S_ 1 := constantI S_ 1 1#1
  let main_v3 : IVec S_ 1 := (fun x v => Host.reduce IntOp.andi x v reducesTo_S1025x128_S_d0_1 h_S_) main_v2 main_c
  let main_v4 : FVec F S1025x128 .f32 := Host.absf main_arg3
  let main_cst_0 : FVec F S_ .f32 := constant S_ .f32 0x7F800000#32
  let main_v5 : FVec F S1025x128 .f32 := broadcastInDim S1025x128 ![] bcast_S_S1025x128 main_cst_0
  let main_v6 : IVec S1025x128 1 := cmpf .olt main_v4 main_v5
  let main_c_1 : IVec S_ 1 := constantI S_ 1 1#1
  let main_v7 : IVec S_ 1 := (fun x v => Host.reduce IntOp.andi x v reducesTo_S1025x128_S_d0_1 h_S_) main_v6 main_c_1
  let main_v8 : IVec S_ 1 := andi main_v3 main_v7
  let main_v9 : FVec F S1025x128 .f32 := Host.absf main_arg4
  let main_cst_2 : FVec F S_ .f32 := constant S_ .f32 0x7F800000#32
  let main_v10 : FVec F S1025x128 .f32 := broadcastInDim S1025x128 ![] bcast_S_S1025x128 main_cst_2
  let main_v11 : IVec S1025x128 1 := cmpf .olt main_v9 main_v10
  let main_c_3 : IVec S_ 1 := constantI S_ 1 1#1
  let main_v12 : IVec S_ 1 := (fun x v => Host.reduce IntOp.andi x v reducesTo_S1025x128_S_d0_1 h_S_) main_v11 main_c_3
  let main_v13 : IVec S_ 1 := andi main_v8 main_v12
  let main_v14 : FVec F S1025x128 .f32 := Host.absf main_arg5
  let main_cst_4 : FVec F S_ .f32 := constant S_ .f32 0x7F800000#32
  let main_v15 : FVec F S1025x128 .f32 := broadcastInDim S1025x128 ![] bcast_S_S1025x128 main_cst_4
  let main_v16 : IVec S1025x128 1 := cmpf .olt main_v14 main_v15
  fn_part1 (F := F) main_arg0 main_arg1 main_arg6 main_arg7 main_v13 main_v16
-- ==== Kernel.lean ====
abbrev S2x512 : Shape := ⟨2, ![2, 512]⟩
abbrev S1025x128 : Shape := ⟨2, ![1025, 128]⟩
abbrev S128x256 : Shape := ⟨2, ![128, 256]⟩
abbrev S128 : Shape := ⟨1, ![128]⟩
abbrev S2x512x1x1 : Shape := ⟨4, ![2, 512, 1, 1]⟩
abbrev S2x1x512 : Shape := ⟨3, ![2, 1, 512]⟩
abbrev S128x128 : Shape := ⟨2, ![128, 128]⟩
abbrev S128x1025 : Shape := ⟨2, ![128, 1025]⟩
abbrev S128x1 : Shape := ⟨2, ![128, 1]⟩
abbrev S2x512x512x128 : Shape := ⟨4, ![2, 512, 512, 128]⟩
abbrev S1x16x1x1 : Shape := ⟨4, ![1, 16, 1, 1]⟩
abbrev S1x1x512 : Shape := ⟨3, ![1, 1, 512]⟩
abbrev S1x16x512x128 : Shape := ⟨4, ![1, 16, 512, 128]⟩
abbrev S1025x512 : Shape := ⟨2, ![1025, 512]⟩
abbrev S1x512 : Shape := ⟨2, ![1, 512]⟩
abbrev S1x1x1x1 : Shape := ⟨4, ![1, 1, 1, 1]⟩
abbrev S1x1 : Shape := ⟨2, ![1, 1]⟩
abbrev S128x512 : Shape := ⟨2, ![128, 512]⟩
abbrev S512x128 : Shape := ⟨2, ![512, 128]⟩
abbrev S1x1x512x128 : Shape := ⟨4, ![1, 1, 512, 128]⟩

abbrev nBuf : Space → Nat
  | .hbm => 24
  | .vmem => 13
  | .smem => 0
  | _ => 0

abbrev bufTy : (tb : Table) → Fin (tcTables nBuf tb) → BufTy
  | .hbm, ⟨0, _⟩ => ⟨S2x512, .i32⟩
  | .hbm, ⟨1, _⟩ => ⟨S2x512, .i32⟩
  | .hbm, ⟨2, _⟩ => ⟨S1025x128, .f32⟩
  | .hbm, ⟨3, _⟩ => ⟨S1025x128, .f32⟩
  | .hbm, ⟨4, _⟩ => ⟨S1025x128, .f32⟩
  | .hbm, ⟨5, _⟩ => ⟨S1025x128, .f32⟩
  | .hbm, ⟨6, _⟩ => ⟨S128x256, .f32⟩
  | .hbm, ⟨7, _⟩ => ⟨S128, .f32⟩
  | .hbm, ⟨8, _⟩ => ⟨S2x512x1x1, .i32⟩
  | .hbm, ⟨9, _⟩ => ⟨S2x1x512, .i32⟩
  | .hbm, ⟨10, _⟩ => ⟨S2x512x1x1, .i32⟩
  | .hbm, ⟨11, _⟩ => ⟨S2x1x512, .i32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S1025x128, .f32⟩
  | .hbm, ⟨16, _⟩ => ⟨S1025x128, .bf16⟩
  | .hbm, ⟨17, _⟩ => ⟨S128x1025, .bf16⟩
  | .hbm, ⟨18, _⟩ => ⟨S128x128, .f32⟩
  | .hbm, ⟨19, _⟩ => ⟨S1025x128, .f32⟩
  | .hbm, ⟨20, _⟩ => ⟨S1025x128, .bf16⟩
  | .hbm, ⟨21, _⟩ => ⟨S128x1025, .bf16⟩
  | .hbm, ⟨22, _⟩ => ⟨S128x1, .f32⟩
  | .hbm, ⟨23, _⟩ => ⟨S2x512x512x128, .f32⟩
  | .local _ .vmem, ⟨0, _⟩ => ⟨S1x16x1x1, .i32⟩
  | .local _ .vmem, ⟨1, _⟩ => ⟨S1x16x1x1, .i32⟩
  | .local _ .vmem, ⟨2, _⟩ => ⟨S1x1x512, .i32⟩
  | .local _ .vmem, ⟨3, _⟩ => ⟨S1x1x512, .i32⟩
  | .local _ .vmem, ⟨4, _⟩ => ⟨S1x16x1x1, .i32⟩
  | .local _ .vmem, ⟨5, _⟩ => ⟨S1x16x1x1, .i32⟩
  | .local _ .vmem, ⟨6, _⟩ => ⟨S1x1x512, .i32⟩
  | .local _ .vmem, ⟨7, _⟩ => ⟨S1x1x512, .i32⟩
  | .local _ .vmem, ⟨8, _⟩ => ⟨S128x1025, .bf16⟩
  | .local _ .vmem, ⟨9, _⟩ => ⟨S128x1025, .bf16⟩
  | .local _ .vmem, ⟨10, _⟩ => ⟨S128x1, .f32⟩
  | .local _ .vmem, ⟨11, _⟩ => ⟨S1x16x512x128, .f32⟩
  | .local _ .vmem, ⟨12, _⟩ => ⟨S1x16x512x128, .f32⟩
  | _, _ => ⟨S2x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![2, 32, 1], ![false, false, false]⟩

@[reducible] def k0_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k0_off1 (k0_t1 : Fin k0_t1_loop.trips) : Fin 4 → Nat :=
  let c0_14 : Index := 0#32
  let c0_i32_13 : BitVec 32 := 0#32
  let c0_i32 : BitVec 32 := 0#32
  let c1_i32 : BitVec 32 := 1#32
  let arg11 : BitVec 32 := Scf.iv c0_i32 c1_i32 k0_t1
  let c1_i32_12 : BitVec 32 := 1#32
  let v12 : BitVec 32 := Scalar.muli arg11 c1_i32_12
  let v13 : BitVec 32 := Scalar.addi c0_i32_13 v12
  let v14 : Index := Scalar.indexCast v13
  let c0_15 : Index := 0#32
  let c0_16 : Index := 0#32
  ![0, v14.toNat, 0, 0]
def k0_off2 (k0_t1 : Fin k0_t1_loop.trips) : Fin 4 → Nat :=
  let c0_26 : Index := 0#32
  let c0_i32_13 : BitVec 32 := 0#32
  let c0_i32 : BitVec 32 := 0#32
  let c1_i32 : BitVec 32 := 1#32
  let arg11 : BitVec 32 := Scf.iv c0_i32 c1_i32 k0_t1
  let c1_i32_12 : BitVec 32 := 1#32
  let v12 : BitVec 32 := Scalar.muli arg11 c1_i32_12
  let v13 : BitVec 32 := Scalar.addi c0_i32_13 v12
  let v54 : Index := Scalar.indexCast v13
  let c0_27 : Index := 0#32
  let c0_28 : Index := 0#32
  ![0, v54.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x16x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x16x1x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S128x1025 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1025 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x16x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  shapeCasts_S2x512_S2x512x1x1 : S2x512.ShapeCasts S2x512x1x1
  shapeCasts_S2x512_S2x1x512 : S2x512.ShapeCasts S2x1x512
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  transposes_S1025x128_S128x1025_1_0 : S1025x128.Transposes [1, 0] S128x1025
  shapeCasts_S128_S128x1 : S128.ShapeCasts S128x1
  iota_S1025x512_d0_w32 : S1025x512.Iotas .tc 32 [0]
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S128x1025_S128x1025_0_0 : ∀ a, (![0, 0] : Fin 2 → Nat) a + S128x1025.size a ≤ S128x1025.size a
  h_S128x1025 : 0 < S128x1025.numel
  shapeCasts_S128x1025_S128x1025 : S128x1025.ShapeCasts S128x1025
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S1x1x1x1 : 0 < S1x1x1x1.numel
  shapeCasts_S1x1x1x1_S1x1 : S1x1x1x1.ShapeCasts S1x1
  broadcasts_S1x1_S1x512 : S1x1.Broadcasts S1x512
  broadcasts_S1x512_S1025x512 : S1x512.Broadcasts S1025x512
  natLt_1_32 : 1 < 32
  broadcasts_S128x1_S128x512 : S128x1.Broadcasts S128x512
  transposes_S128x512_p1_0_S512x128 : S128x512.Transposes [1, 0] S512x128
  h_S1x1x512x128 : 0 < S1x1x512x128.numel
  shapeCasts_S1x1x512x128_S512x128 : S1x1x512x128.ShapeCasts S512x128
  shapeCasts_S512x128_S1x1x512x128 : S512x128.ShapeCasts S1x1x512x128
  dot_S1025x128_S128x128_S1025x128_1_0_0_1_n_n_wf : DotDims.WF S1025x128 S128x128 S1025x128 [1] [0] [0] [1] [] []
  dot_S128x1025_S1025x512_S128x512_1_0_0_1_n_n_wf : DotDims.WF S128x1025 S1025x512 S128x512 [1] [0] [0] [1] [] []
  hrank0 : 0 < grid0.rank
  k0_t1_ok : k0_t1_loop.OK
  k0_off1_inb : ∀ k0_t1 : Fin k0_t1_loop.trips, ∀ a, (k0_off1 k0_t1) a + S1x1x1x1.size a ≤ S1x16x1x1.size a
  k0_off2_inb : ∀ k0_t1 : Fin k0_t1_loop.trips, ∀ a, (k0_off2 k0_t1) a + S1x1x512x128.size a ≤ S1x16x512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1x1.size a ≤ S2x512x1x1.size a
  hwx0_0 : ∀ i : grid0.Coords, EltTy.bits .i32 = 32 ∨ (Rect.block (s := S2x512x1x1) S1x16x1x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .i32 = 32 ∨ (Rect.block (s := S2x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1x1.size a ≤ S2x512x1x1.size a
  hwx0_2 : ∀ i : grid0.Coords, EltTy.bits .i32 = 32 ∨ (Rect.block (s := S2x512x1x1) S1x16x1x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .i32 = 32 ∨ (Rect.block (s := S2x1x512) S1x1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1025.size a ≤ S128x1025.size a
  hwx0_4 : ∀ i : grid0.Coords, EltTy.bits .bf16 = 32 ∨ (Rect.block (s := S128x1025) S128x1025.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1025.size a ≤ S128x1025.size a
  hwx0_5 : ∀ i : grid0.Coords, EltTy.bits .bf16 = 32 ∨ (Rect.block (s := S128x1025) S128x1025.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x512x128.size a ≤ S2x512x512x128.size a
  hwx0_7 : ∀ i : grid0.Coords, EltTy.bits .f32 = 32 ∨ (Rect.block (s := S2x512x512x128) S1x16x512x128.size (cc0_transform_7 i) (hinb0_7 i)).WholeWords (EltTy.packing .f32)

variable [Facts₀]

def dot_S1025x128_S128x128_S1025x128_1_0_0_1_n_n : DotDims S1025x128 S128x128 S1025x128 where
  lhsContracting := [1]
  rhsContracting := [0]
  lhsNonContracting := [0]
  rhsNonContracting := [1]
  lhsBatch := []
  rhsBatch := []
  wf := dot_S1025x128_S128x128_S1025x128_1_0_0_1_n_n_wf
def dot_S128x1025_S1025x512_S128x512_1_0_0_1_n_n : DotDims S128x1025 S1025x512 S128x512 where
  lhsContracting := [1]
  rhsContracting := [0]
  lhsNonContracting := [0]
  rhsNonContracting := [1]
  lhsBatch := []
  rhsBatch := []
  wf := dot_S128x1025_S1025x512_S128x512_1_0_0_1_n_n_wf

abbrev win0_0 : Pipeline.Window sig grid0 :=
  Pipeline.Window.ofSpec (Memref.whole main_v0) S1x16x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x1025.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x1025.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x16x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x512 : Shape := ⟨2, ![2, 512]⟩
abbrev S1025x128 : Shape := ⟨2, ![1025, 128]⟩
abbrev S128x256 : Shape := ⟨2, ![128, 256]⟩
abbrev S128 : Shape := ⟨1, ![128]⟩
abbrev S2x512x1 : Shape := ⟨3, ![2, 512, 1]⟩
abbrev S2x1x512 : Shape := ⟨3, ![2, 1, 512]⟩
abbrev S2x512x512 : Shape := ⟨3, ![2, 512, 512]⟩
abbrev S_ : Shape := ⟨0, ![]⟩
abbrev S2x512x512x1 : Shape := ⟨4, ![2, 512, 512, 1]⟩
abbrev S2x512x512x128 : Shape := ⟨4, ![2, 512, 512, 128]⟩
abbrev S2x512x512x256 : Shape := ⟨4, ![2, 512, 512, 256]⟩
abbrev S1x1x1x128 : Shape := ⟨4, ![1, 1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x512, .i32⟩
  | .hbm, ⟨1, _⟩ => ⟨S2x512, .i32⟩
  | .hbm, ⟨2, _⟩ => ⟨S1025x128, .f32⟩
  | .hbm, ⟨3, _⟩ => ⟨S1025x128, .f32⟩
  | .hbm, ⟨4, _⟩ => ⟨S1025x128, .f32⟩
  | .hbm, ⟨5, _⟩ => ⟨S1025x128, .f32⟩
  | .hbm, ⟨6, _⟩ => ⟨S128x256, .f32⟩
  | .hbm, ⟨7, _⟩ => ⟨S128, .f32⟩
  | .hbm, ⟨8, _⟩ => ⟨S2x512x1, .i32⟩
  | .hbm, ⟨9, _⟩ => ⟨S2x1x512, .i32⟩
  | .hbm, ⟨10, _⟩ => ⟨S2x512x512, .i32⟩
  | .hbm, ⟨11, _⟩ => ⟨S2x512x512, .i32⟩
  | .hbm, ⟨12, _⟩ => ⟨S2x512x512, .i32⟩
  | .hbm, ⟨13, _⟩ => ⟨S_, .i32⟩
  | .hbm, ⟨14, _⟩ => ⟨S2x512x512, .i32⟩
  | .hbm, ⟨15, _⟩ => ⟨S2x512x512, .i32⟩
  | .hbm, ⟨16, _⟩ => ⟨S2x512x1, .i32⟩
  | .hbm, ⟨17, _⟩ => ⟨S2x1x512, .i32⟩
  | .hbm, ⟨18, _⟩ => ⟨S2x512x512, .i32⟩
  | .hbm, ⟨19, _⟩ => ⟨S2x512x512, .i32⟩
  | .hbm, ⟨20, _⟩ => ⟨S2x512x512, .i32⟩
  | .hbm, ⟨21, _⟩ => ⟨S_, .i32⟩
  | .hbm, ⟨22, _⟩ => ⟨S2x512x512, .i32⟩
  | .hbm, ⟨23, _⟩ => ⟨S2x512x512, .i32⟩
  | .hbm, ⟨24, _⟩ => ⟨S_, .i32⟩
  | .hbm, ⟨25, _⟩ => ⟨S2x512x512, .i32⟩
  | .hbm, ⟨26, _⟩ => ⟨S2x512x512, .i1⟩
  | .hbm, ⟨27, _⟩ => ⟨S_, .i32⟩
  | .hbm, ⟨28, _⟩ => ⟨S2x512x512, .i32⟩
  | .hbm, ⟨29, _⟩ => ⟨S2x512x512, .i32⟩
  | .hbm, ⟨30, _⟩ => ⟨S2x512x512, .i32⟩
  | .hbm, ⟨31, _⟩ => ⟨S2x512x512x1, .i32⟩
  | .hbm, ⟨32, _⟩ => ⟨S2x512x512x128, .f32⟩
  | .hbm, ⟨33, _⟩ => ⟨S_, .i32⟩
  | .hbm, ⟨34, _⟩ => ⟨S2x512x512, .i32⟩
  | .hbm, ⟨35, _⟩ => ⟨S2x512x512, .i1⟩
  | .hbm, ⟨36, _⟩ => ⟨S_, .i32⟩
  | .hbm, ⟨37, _⟩ => ⟨S2x512x512, .i32⟩
  | .hbm, ⟨38, _⟩ => ⟨S2x512x512, .i32⟩
  | .hbm, ⟨39, _⟩ => ⟨S2x512x512, .i32⟩
  | .hbm, ⟨40, _⟩ => ⟨S2x512x512x1, .i32⟩
  | .hbm, ⟨41, _⟩ => ⟨S2x512x512x128, .f32⟩
  | .hbm, ⟨42, _⟩ => ⟨S2x512x512x256, .f32⟩
  | .hbm, ⟨43, _⟩ => ⟨S2x512x512x128, .f32⟩
  | .hbm, ⟨44, _⟩ => ⟨S1x1x1x128, .f32⟩
  | .hbm, ⟨45, _⟩ => ⟨S2x512x512x128, .f32⟩
  | .hbm, ⟨46, _⟩ => ⟨S2x512x512x128, .f32⟩
  | .hbm, ⟨47, _⟩ => ⟨S_, .f32⟩
  | .hbm, ⟨48, _⟩ => ⟨S2x512x512x128, .f32⟩
  | .hbm, ⟨49, _⟩ => ⟨S2x512x512x128, .f32⟩
  | _, _ => ⟨S2x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S2x512_S2x512x1_0_1 : S2x512.BroadcastsInDim S2x512x1 (![0, 1] : Fin 2 → Fin S2x512x1.rank)
  bcast_S2x512_S2x1x512_0_2 : S2x512.BroadcastsInDim S2x1x512 (![0, 2] : Fin 2 → Fin S2x1x512.rank)
  bcast_S2x512x1_S2x512x512_0_1_2 : S2x512x1.BroadcastsInDim S2x512x512 (![0, 1, 2] : Fin 3 → Fin S2x512x512.rank)
  bcast_S2x1x512_S2x512x512_0_1_2 : S2x1x512.BroadcastsInDim S2x512x512 (![0, 1, 2] : Fin 3 → Fin S2x512x512.rank)
  bcast_S_S2x512x512 : S_.BroadcastsInDim S2x512x512 (![] : Fin 0 → Fin S2x512x512.rank)
  bcast_S2x512x512_S2x512x512x1_0_1_2 : S2x512x512.BroadcastsInDim S2x512x512x1 (![0, 1, 2] : Fin 3 → Fin S2x512x512x1.rank)
  concatenates_S2x512x512x128_S2x512x512x128_S2x512x512x256_d3 : Shape.Concatenates [S2x512x512x128, S2x512x512x128] S2x512x512x256 3
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  gather_S1025x128_S2x512x512x1_S2x512x512x128_3_0_n_n_0_3_1128_wf : GatherDims.WF S1025x128 S2x512x512x1 S2x512x512x128 [3] [0] [] [0] [] 3 ![1, 128]
  dot_S2x512x512x256_S128x256_S2x512x512x128_3_1_012_0_n_n_wf : DotDims.WF S2x512x512x256 S128x256 S2x512x512x128 [3] [1] [0, 1, 2] [0] [] []

variable [Facts₀]

def gather_S1025x128_S2x512x512x1_S2x512x512x128_3_0_n_n_0_3_1128 : GatherDims S1025x128 S2x512x512x1 S2x512x512x128 where
  offsetDims := [3]
  collapsedSliceDims := [0]
  operandBatchingDims := []
  startIndicesBatchingDims := []
  startIndexMap := [0]
  indexVectorDim := 3
  sliceSizes := ![1, 128]
  wf := gather_S1025x128_S2x512x512x1_S2x512x512x128_3_0_n_n_0_3_1128_wf
def dot_S2x512x512x256_S128x256_S2x512x512x128_3_1_012_0_n_n : DotDims S2x512x512x256 S128x256 S2x512x512x128 where
  lhsContracting := [3]
  rhsContracting := [1]
  lhsNonContracting := [0, 1, 2]
  rhsNonContracting := [0]
  lhsBatch := []
  rhsBatch := []
  wf := dot_S2x512x512x256_S128x256_S2x512x512x128_3_1_012_0_n_n_wf

class Facts : Prop extends Facts₀ where

variable [Facts]
-- ==== Proof.Spec.lean ====
/-
  Relative-position embedding with the linear layer folded in: the one function of the argument arrays that both
  programs compute at the ideal values.

  For a batch b, a query position i and a key position j the two tables are read at the rows named by the words
  pos_s[b,i] - pos_s[b,j] + 512 and pos_e[b,i] - pos_e[b,j] + 512 (32-bit arithmetic, as both programs do it); the two
  rows, side by side, meet the [128, 256] weight matrix, the bias is added and the result is cut off below at zero.
  Because a row followed by a linear map is the linear map applied to the table followed by the row, the result at
  (b, i, j, h) is
      max ( (sum_k ss[r_s, k] * W[h, k]) + (sum_k ee[r_e, k] * W[h, 128 + k]) + bias[h], 0 ).
  The two facts about finite sums used to reach this form from either program are here too: a sum against an
  indicator picks its one term, and a sum over 256 columns is the sum over the first 128 plus the sum over the last 128.
  Neither needs finiteness: on the extended reals x * 0 = 0 and x * 1 = x for every x, and + is commutative and
  associative.
-/
import Idealize.ShloMosaic.PureOps.Ideal
import Idealize.ShloMosaic.Lib.ValueIdx

noncomputable section

open scoped BigOperators

namespace Cert.RelPos

open Idealize.ShloMosaic Idealize.ShloMosaic.ValueIdx

abbrev SPos : Shape := ⟨2, ![2, 512]⟩
abbrev STab : Shape := ⟨2, ![1025, 128]⟩
abbrev SLin : Shape := ⟨2, ![128, 256]⟩
abbrev SBias : Shape := ⟨1, ![128]⟩
abbrev SOut : Shape := ⟨4, ![2, 512, 512, 128]⟩

/-- The word a table is indexed with: query position minus key position plus 512, in 32-bit arithmetic. -/
def relWord (p : IVec SPos 32) (b : Fin 2) (i j : Fin 512) : BitVec 32 :=
  p (ix2 b i) - p (ix2 b j) + 512#32

/-- A word that, read as a signed integer, is a row of a 1025-row table. -/
def IsRow (w : BitVec 32) : Prop := 0 ≤ w.toInt ∧ w.toInt < 1025

/-- Every pair of positions of every batch names a row of the table. -/
def InTable (p : IVec SPos 32) : Prop := ∀ (b : Fin 2) (i j : Fin 512), IsRow (relWord p b i j)

/-- The row a word names (a word that is no row is sent to some row; it is never used). -/
def rowOf (w : BitVec 32) : Fin 1025 := ⟨w.toNat % 1025, Nat.mod_lt _ (by decide)⟩

/-- A row word is non-negative, so its unsigned and signed readings agree, and both are below 1025. -/
theorem IsRow.toNat_lt {w : BitVec 32} (h : IsRow w) : w.toNat < 1025 := by
  obtain ⟨h0, h1⟩ := h
  have hmsb : w.msb = false := by
    by_contra hm
    have : w.msb = true := by simpa using hm
    have := BitVec.toInt_neg_of_msb_true this
    omega
  rw [BitVec.toInt_eq_toNat_of_msb hmsb] at h1
  omega

theorem IsRow.toInt_eq {w : BitVec 32} (h : IsRow w) : w.toInt = (w.toNat : Int) := by
  obtain ⟨h0, _⟩ := h
  have hmsb : w.msb = false := by
    by_contra hm
    have : w.msb = true := by simpa using hm
    have := BitVec.toInt_neg_of_msb_true this
    omega
  exact BitVec.toInt_eq_toNat_of_msb hmsb

theorem rowOf_val {w : BitVec 32} (h : IsRow w) : (rowOf w).val = w.toNat :=
  Nat.mod_eq_of_lt h.toNat_lt

/-- One half of the linear layer applied to one table row: the row r of the table against the columns
    128 * half .. 128 * half + 127 of row h of the weights. -/
def proj (tab : FVec Ideal STab .f32) (W : FVec Ideal SLin .f32) (half : Fin 2) (r : Fin 1025) (h : Fin 128) : EReal :=
  ∑ k : Fin 128, tab (ix2 r k) * W (ix2 h ⟨128 * half.val + k.val, by omega⟩)

/-- The result at batch b, query i, key j, output feature h. -/
def Gat (ps pe : IVec SPos 32) (ss ee : FVec Ideal STab .f32) (W : FVec Ideal SLin .f32) (bias : FVec Ideal SBias .f32)
    (b : Fin 2) (i j : Fin 512) (h : Fin 128) : EReal :=
  max (proj ss W 0 (rowOf (relWord ps b i j)) h + proj ee W 1 (rowOf (relWord pe b i j)) h + bias (ix1 h))
    (Ideal.ofBits .f32 0x00000000#32)

/-- The whole result array. -/
def G (ps pe : IVec SPos 32) (ss ee : FVec Ideal STab .f32) (W : FVec Ideal SLin .f32) (bias : FVec Ideal SBias .f32) :
    FVec Ideal SOut .f32 :=
  fun y => Gat ps pe ss ee W bias ⟨(y 0).val, (y 0).isLt⟩ ⟨(y 1).val, (y 1).isLt⟩ ⟨(y 2).val, (y 2).isLt⟩ ⟨(y 3).val, (y 3).isLt⟩

theorem G_apply (ps pe : IVec SPos 32) (ss ee : FVec Ideal STab .f32) (W : FVec Ideal SLin .f32) (bias : FVec Ideal SBias .f32)
    (b : Fin 2) (i j : Fin 512) (h : Fin 128) : G ps pe ss ee W bias (ix4 b i j h) = Gat ps pe ss ee W bias b i j h := rfl

/-- A sum against the indicator of one index is the term at that index. -/
theorem sum_mul_indicator {n : Nat} (T : Fin n → EReal) (r0 : Fin n) (δ : Fin n → EReal)
    (h1 : δ r0 = 1) (h0 : ∀ r, r ≠ r0 → δ r = 0) : ∑ r : Fin n, T r * δ r = T r0 := by
  rw [Finset.sum_eq_single r0 (fun r _ hr => by rw [h0 r hr, mul_zero]) (fun h => absurd (Finset.mem_univ _) h), h1, mul_one]

/-- A sum over 256 columns is the sum over the first 128 plus the sum over the last 128. -/
theorem sum_halves (f : Fin 256 → EReal) :
    ∑ k : Fin 256, f k = ∑ k : Fin 128, f ⟨128 * (0 : Fin 2).val + k.val, by omega⟩ + ∑ k : Fin 128, f ⟨128 * (1 : Fin 2).val + k.val, by omega⟩ := by
  have := Fin.sum_univ_add (M := EReal) (a := 128) (b := 128) f
  rw [this]
  congr 1

end Cert.RelPos

end
-- ==== Proof.PreRows.lean ====
/-
  The precondition read back: the added conjuncts say that every offset relative position is a row of the table.
-/
import proofs.«430832_j35029753266234_3_alg».proof.Pre_finite_inputs
import proofs.«430832_j35029753266234_3_alg».proof.Proof.Gen.Pre_finite_inputs
import proofs.«430832_j35029753266234_3_alg».proof.Proof.Spec
import Idealize.ShloMosaic.Lib.ReduceAll
import Idealize.ShloMosaic.Lib.StableHlo.Predicate

noncomputable section

namespace Cert.RelPos

open Idealize.ShloMosaic Idealize.ShloMosaic.ValueIdx

section Read

open Cert.Pre_finite_inputs Cert.Pre_finite_inputs.Facts

/-- The scalar shape has one index. -/
private instance : Subsingleton S_.Idx := ⟨fun a b => funext fun d => d.elim0⟩

/-- The positions laid along the second axis of the [2, 512, 512] cube (constant along the third): at (b, i, j) the
    cube holds position i of batch b. -/
private theorem cube_query (p : IVec S2x512 32) (b : Fin 2) (i j : Fin 512) :
    broadcastInDim S2x512x512 ![0, 1, 2] bcast_S2x512x1_S2x512x512_0_1_2
      (broadcastInDim S2x512x1 ![0, 1] bcast_S2x512_S2x512x1_0_1 p) (ix3 b i j) = p (ix2 b i) := by
  show p _ = p _
  congr 1
  funext a
  match a with
  | ⟨0, _⟩ => rfl
  | ⟨1, _⟩ => rfl

/-- The positions laid along the third axis of the cube (constant along the second): at (b, i, j) the cube holds
    position j of batch b. -/
private theorem cube_key (p : IVec S2x512 32) (b : Fin 2) (i j : Fin 512) :
    broadcastInDim S2x512x512 ![0, 1, 2] bcast_S2x1x512_S2x512x512_0_1_2
      (broadcastInDim S2x1x512 ![0, 2] bcast_S2x512_S2x1x512_0_2 p) (ix3 b i j) = p (ix2 b j) := by
  show p _ = p _
  congr 1
  funext a
  match a with
  | ⟨0, _⟩ => rfl
  | ⟨1, _⟩ => rfl

/-- The cube of index words the precondition tests: query position minus key position plus 512. -/
private def wordCube (p : IVec S2x512 32) : IVec S2x512x512 32 :=
  addi
    (subi
      (broadcastInDim S2x512x512 ![0, 1, 2] bcast_S2x512x1_S2x512x512_0_1_2
        (broadcastInDim S2x512x1 ![0, 1] bcast_S2x512_S2x512x1_0_1 p))
      (broadcastInDim S2x512x512 ![0, 1, 2] bcast_S2x1x512_S2x512x512_0_1_2
        (broadcastInDim S2x1x512 ![0, 2] bcast_S2x512_S2x1x512_0_2 p)))
    (broadcastInDim S2x512x512 ![] bcast_S_S2x512x512 (constantI S_ 32 512#32))

/-- At (b, i, j) the cube holds the word the tables are indexed with. -/
private theorem wordCube_apply (p : IVec S2x512 32) (b : Fin 2) (i j : Fin 512) :
    wordCube p (ix3 b i j) = relWord p b i j := by
  show _ - _ + 512#32 = _
  rw [cube_query, cube_key]
  rfl

/-- The range test over the whole cube, all of whose entries are 1, puts every index word in [0, 1025). -/
private theorem inTable_of_all (p : IVec S2x512 32)
    (h : Host.reduce IntOp.andi
          (andi (cmpi .sge (wordCube p) (broadcastInDim S2x512x512 ![] bcast_S_S2x512x512 (constantI S_ 32 0#32)))
            (cmpi .slt (wordCube p) (broadcastInDim S2x512x512 ![] bcast_S_S2x512x512 (constantI S_ 32 1025#32))))
          (constantI S_ 1 1#1) reducesTo_S2x512x512_S_d0_1_2 h_S_ ix0 = 1#1) : InTable p := by
  intro b i j
  -- the conjunction of the two comparisons at (b, i, j) is 1, so each comparison is
  have e := Host.reduce_andi_all _ _ _ _ _ h (ix3 b i j)
  obtain ⟨ege, elt⟩ := IntOp.andi_eq_one.1 e
  have hge := IntOp.cmpi_sge.1 ege
  have hlt := IntOp.cmpi_slt.1 elt
  -- both comparisons are of the index word against a literal
  rw [wordCube_apply] at hge hlt
  have h0 : (0#32 : BitVec 32).toInt = 0 := by decide
  have h1025 : (1025#32 : BitVec 32).toInt = 1025 := by decide
  exact ⟨h0 ▸ hge, h1025 ▸ hlt⟩

end Read

/-- Where the printed precondition is all ones, both position arrays name only rows of the table. -/
theorem inTable_of_pre (a0 a1 : IVec SPos 32) (a2 a3 a4 a5 : FVec Ideal STab .f32) (a6 : FVec Ideal SLin .f32)
    (a7 : FVec Ideal SBias .f32)
    (h : Cert.Pre_finite_inputs.fn (F := Ideal) a0 a1 a2 a3 a4 a5 a6 a7 = fun _ => 1#1) :
    InTable a0 ∧ InTable a1 := by
  -- the precondition is a scalar; read it at its one index and lay the chain of conjunctions open
  have h' := congrFun h ValueIdx.ix0
  dsimp only [Cert.Pre_finite_inputs.fn, Cert.Pre_finite_inputs.fn_part1, Cert.Pre_finite_inputs.fn_part2,
    Cert.Pre_finite_inputs.fn_part3] at h'
  -- the last two conjuncts are the range tests on the two position arrays; the earlier ones are not needed
  obtain ⟨h42, h55⟩ := IntOp.andi_eq_one.1 h'
  obtain ⟨-, h41⟩ := IntOp.andi_eq_one.1 h42
  exact ⟨inTable_of_all a0 h41, inTable_of_all a1 h55⟩

end Cert.RelPos

end
-- ==== Proof.RefValue.lean ====
/-
  The reference's result, index by index, is the specification.

  The reference builds, for each of the two position arrays, the word pos[b, i] - pos[b, j] + 512 by broadcasts and
  32-bit arithmetic, adds 1025 to it where it is negative, and gathers the table row it names (the gather reads the
  word signed and clamps it into [0, 1024]); the two gathered rows are laid side by side into 256 columns, met with
  row h of the weights, the bias is added and the result is cut off below at zero. Where the word is a row of the
  table, 0 <= word < 1025, the wrap and the clamp do nothing and the row read is the word's own. A sum over the 256
  columns is the sum over the first 128, which are the first table's row, plus the sum over the last 128, which are
  the second table's row: the two projections of the specification.
-/
import proofs.«430832_j35029753266234_3_alg».proof.Proof.Gen.ReferenceIdeal.Read
import proofs.«430832_j35029753266234_3_alg».proof.Proof.Spec

noncomputable section

open scoped BigOperators

namespace Cert.RelPos

open Idealize.ShloMosaic Idealize.ShloMosaic.ValueIdx Cert.ReferenceIdeal Cert.ReferenceIdeal.Gen

/-! ## The words: both gathers' start indices are the specification's words -/

/-- A signed comparison "below zero" of a word whose signed reading is not negative is the bit 0. -/
private theorem cmpi_slt_zero_of_nonneg (w : BitVec 32) (h : 0 ≤ w.toInt) : IntOp.cmpi .slt w 0#32 = 0#1 := by
  have hs : w.slt 0#32 = false := by
    rw [Bool.eq_false_iff]
    intro hc
    rw [BitVec.slt_iff_toInt_lt] at hc
    simp at hc
    omega
  simp only [IntOp.cmpi, hs]
  rfl

/-- The query position's index: (b, i, j) read through the two broadcasts along the key axis is (b, i). -/
private theorem idx_query (b : Fin 2) (i j : Fin 512) : Read.idx_main_v0 (Read.idx_main_v2 (ix3 b i j)) = ix2 b i :=
  funext fun a => Fin.ext (by match a with | ⟨0, _⟩ => rfl | ⟨1, _⟩ => rfl)

/-- The key position's index: (b, i, j) read through the two broadcasts along the query axis is (b, j). -/
private theorem idx_key (b : Fin 2) (i j : Fin 512) : Read.idx_main_v1 (Read.idx_main_v3 (ix3 b i j)) = ix2 b j :=
  funext fun a => Fin.ext (by match a with | ⟨0, _⟩ => rfl | ⟨1, _⟩ => rfl)

/-- The same two index equations for the second position array's broadcasts. -/
private theorem idx_query' (b : Fin 2) (i j : Fin 512) : Read.idx_main_v7 (Read.idx_main_v9 (ix3 b i j)) = ix2 b i :=
  funext fun a => Fin.ext (by match a with | ⟨0, _⟩ => rfl | ⟨1, _⟩ => rfl)

private theorem idx_key' (b : Fin 2) (i j : Fin 512) : Read.idx_main_v8 (Read.idx_main_v10 (ix3 b i j)) = ix2 b j :=
  funext fun a => Fin.ext (by match a with | ⟨0, _⟩ => rfl | ⟨1, _⟩ => rfl)

/-- The first table's index before the negative-index wrap, at (b, i, j), is the word of the specification. -/
private theorem v6_apply (x0 : IVec SPos 32) (b : Fin 2) (i j : Fin 512) :
    Cert.ReferenceIdeal.Read.val_main_v6 (F := Ideal) x0 (ix3 b i j) = relWord x0 b i j := by
  rw [Read.val_main_v6_apply, Read.val_main_v4_apply, Read.val_main_v2_apply, Read.val_main_v3_apply,
    Read.val_main_v0_apply, Read.val_main_v1_apply, Read.val_main_v5_apply, Read.val_main_c_apply,
    idx_query, idx_key]
  rfl

/-- The second table's index before the negative-index wrap, at (b, i, j), is the word of the specification. -/
private theorem v13_apply (x1 : IVec SPos 32) (b : Fin 2) (i j : Fin 512) :
    Cert.ReferenceIdeal.Read.val_main_v13 (F := Ideal) x1 (ix3 b i j) = relWord x1 b i j := by
  rw [Read.val_main_v13_apply, Read.val_main_v11_apply, Read.val_main_v9_apply, Read.val_main_v10_apply,
    Read.val_main_v7_apply, Read.val_main_v8_apply, Read.val_main_v12_apply, Read.val_main_c_0_apply,
    idx_query', idx_key']
  rfl

/-- Where the word is a row it is not negative, so the wrap of negative indices (add 1025 where the index is below
    zero) leaves it alone: the first gather's start index is the word. -/
private theorem v18_apply (x0 : IVec SPos 32) (h0 : InTable x0) (b : Fin 2) (i j : Fin 512) :
    Cert.ReferenceIdeal.Read.val_main_v18 (F := Ideal) x0 (ix3 b i j) = relWord x0 b i j := by
  rw [Read.val_main_v18_apply, Read.val_main_v15_apply, Read.val_main_v14_apply, Read.val_main_c_1_apply, v6_apply,
    cmpi_slt_zero_of_nonneg _ (h0 b i j).1, select_zero]

/-- The same for the second gather's start index. -/
private theorem v25_apply (x1 : IVec SPos 32) (h1 : InTable x1) (b : Fin 2) (i j : Fin 512) :
    Cert.ReferenceIdeal.Read.val_main_v25 (F := Ideal) x1 (ix3 b i j) = relWord x1 b i j := by
  rw [Read.val_main_v25_apply, Read.val_main_v22_apply, Read.val_main_v21_apply, Read.val_main_c_3_apply, v13_apply,
    cmpi_slt_zero_of_nonneg _ (h1 b i j).1, select_zero]

/-- A row word, read signed and clamped into [0, 1024], is the row it names. -/
private theorem clamp_row {w : BitVec 32} (h : IsRow w) : min w.toInt.toNat 1024 = (rowOf w).val := by
  rw [rowOf_val h, h.toInt_eq]
  have := h.toNat_lt
  omega

/-! ## A row gather read at an index -/

/-- A row gather read at (b, i, j, k): the table at column k of the row r, where r is the start index at
    (b, i, j, 0) read signed and clamped into [0, 1024]. -/
private theorem gather_row_apply {α : Type} (x : S1025x128.Idx → α) (idx : IVec S2x512x512x1 32) (b : Fin 2) (i j : Fin 512)
    (k : Fin 128) (r : Fin 1025) (hr : min (idx (ix4 b i j (0 : Fin 1))).toInt.toNat 1024 = r.val) :
    Host.gather gather_S1025x128_S2x512x512x1_S2x512x512x128_3_0_n_n_0_3_1128 x idx (ix4 b i j k) = x (ix2 r k) := by
  unfold Host.gather
  congr 1
  funext a
  refine Fin.ext ?_
  match a with
  | ⟨0, _⟩ =>
    show gather_S1025x128_S2x512x512x1_S2x512x512x128_3_0_n_n_0_3_1128.start (ix4 b i j k) idx 0
        + gather_S1025x128_S2x512x512x1_S2x512x512x128_3_0_n_n_0_3_1128.batchCoord (ix4 b i j k) 0
        + gather_S1025x128_S2x512x512x1_S2x512x512x128_3_0_n_n_0_3_1128.offCoord (ix4 b i j k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1025x128_S2x512x512x1_S2x512x512x128_3_0_n_n_0_3_1128.startIndexMap from
      List.mem_singleton.mpr rfl)]
    have hsi : gather_S1025x128_S2x512x512x1_S2x512x512x128_3_0_n_n_0_3_1128.siIdx (ix4 b i j k)
        ⟨List.idxOf (0 : Fin 2) gather_S1025x128_S2x512x512x1_S2x512x512x128_3_0_n_n_0_3_1128.startIndexMap,
          List.idxOf_lt_length_iff.2 (List.mem_singleton.mpr rfl)⟩ = ix4 b i j (0 : Fin 1) := by
      funext c; refine Fin.ext ?_
      match c with
      | ⟨0, _⟩ => rfl
      | ⟨1, _⟩ => rfl
      | ⟨2, _⟩ => rfl
      | ⟨3, _⟩ => rfl
    rw [hsi]
    exact hr
  | ⟨1, _⟩ =>
    show gather_S1025x128_S2x512x512x1_S2x512x512x128_3_0_n_n_0_3_1128.start (ix4 b i j k) idx 1
        + gather_S1025x128_S2x512x512x1_S2x512x512x128_3_0_n_n_0_3_1128.batchCoord (ix4 b i j k) 1
        + gather_S1025x128_S2x512x512x1_S2x512x512x128_3_0_n_n_0_3_1128.offCoord (ix4 b i j k) 1 = k.val
    rw [GatherDims.batchCoord_eq_zero _ _ _ List.not_mem_nil]
    unfold GatherDims.start
    rw [dif_neg (show ¬ (1 : Fin 2) ∈ gather_S1025x128_S2x512x512x1_S2x512x512x128_3_0_n_n_0_3_1128.startIndexMap by decide)]
    simp only [Nat.add_zero, Nat.zero_add]
    unfold GatherDims.offCoord
    rw [dif_pos (show (1 : Fin 2) ∈ gather_S1025x128_S2x512x512x1_S2x512x512x128_3_0_n_n_0_3_1128.sKept by decide)]
    rfl

/-! ## The gathers, their concatenation, the weights and the bias at an index -/

/-- The start index of either gather as an array with a trailing axis of extent one: at (b, i, j, 0) it is the array
    without that axis at (b, i, j). -/
private theorem idx_start (b : Fin 2) (i j : Fin 512) : Read.idx_main_v19 (ix4 b i j (0 : Fin 1)) = ix3 b i j :=
  funext fun a => Fin.ext (by match a with | ⟨0, _⟩ => rfl | ⟨1, _⟩ => rfl | ⟨2, _⟩ => rfl)

private theorem idx_start' (b : Fin 2) (i j : Fin 512) : Read.idx_main_v26 (ix4 b i j (0 : Fin 1)) = ix3 b i j :=
  funext fun a => Fin.ext (by match a with | ⟨0, _⟩ => rfl | ⟨1, _⟩ => rfl | ⟨2, _⟩ => rfl)

/-- The first gather at (b, i, j, k) is the first table at column k of the row the word names: the clamp into
    [0, 1024] does nothing to a row word. -/
private theorem v20_apply (x0 : IVec SPos 32) (x2 : FVec Ideal STab .f32) (h0 : InTable x0) (b : Fin 2) (i j : Fin 512)
    (k : Fin 128) :
    Cert.ReferenceIdeal.Read.val_main_v20 (F := Ideal) x0 x2 (ix4 b i j k) = x2 (ix2 (rowOf (relWord x0 b i j)) k) := by
  unfold Read.val_main_v20
  refine gather_row_apply x2 _ b i j k (rowOf (relWord x0 b i j)) ?_
  rw [Read.val_main_v19_apply, idx_start, v18_apply x0 h0]
  exact clamp_row (h0 b i j)

/-- The second gather at (b, i, j, k) is the second table at column k of the row the word names. -/
private theorem v27_apply (x1 : IVec SPos 32) (x5 : FVec Ideal STab .f32) (h1 : InTable x1) (b : Fin 2) (i j : Fin 512)
    (k : Fin 128) :
    Cert.ReferenceIdeal.Read.val_main_v27 (F := Ideal) x1 x5 (ix4 b i j k) = x5 (ix2 (rowOf (relWord x1 b i j)) k) := by
  unfold Read.val_main_v27
  refine gather_row_apply x5 _ b i j k (rowOf (relWord x1 b i j)) ?_
  rw [Read.val_main_v26_apply, idx_start', v25_apply x1 h1]
  exact clamp_row (h1 b i j)

/-- The two gathers side by side, at a column of the first half: the first gather at that column. -/
private theorem v28_apply_fst (x0 x1 : IVec SPos 32) (x2 x5 : FVec Ideal STab .f32) (b : Fin 2) (i j : Fin 512)
    (h k : Fin 128) :
    Cert.ReferenceIdeal.Read.val_main_v28 (F := Ideal) x0 x1 x2 x5
        (Read.lidx_main_v29 (ix4 b i j h) ⟨128 * (0 : Fin 2).val + k.val, by omega⟩)
      = Cert.ReferenceIdeal.Read.val_main_v20 (F := Ideal) x0 x2 (ix4 b i j k) := by
  unfold Read.val_main_v28
  exact concatenate_pair_apply_left (t := S2x512x512x256) (s₁ := S2x512x512x128) (s₂ := S2x512x512x128) 3
    (Read.val_main_v20 (F := Ideal) x0 x2) (Read.val_main_v27 (F := Ideal) x1 x5)
    concatenates_S2x512x512x128_S2x512x512x128_S2x512x512x256_d3 _ rfl (ix4 b i j k) (fun c => by
      match c with
      | ⟨0, _⟩ => rfl
      | ⟨1, _⟩ => rfl
      | ⟨2, _⟩ => rfl
      | ⟨3, _⟩ => show k.val = 128 * 0 + k.val; omega)

/-- The two gathers side by side, at a column of the second half: the second gather at that column less 128. -/
private theorem v28_apply_snd (x0 x1 : IVec SPos 32) (x2 x5 : FVec Ideal STab .f32) (b : Fin 2) (i j : Fin 512)
    (h k : Fin 128) :
    Cert.ReferenceIdeal.Read.val_main_v28 (F := Ideal) x0 x1 x2 x5
        (Read.lidx_main_v29 (ix4 b i j h) ⟨128 * (1 : Fin 2).val + k.val, by omega⟩)
      = Cert.ReferenceIdeal.Read.val_main_v27 (F := Ideal) x1 x5 (ix4 b i j k) := by
  unfold Read.val_main_v28
  exact concatenate_pair_apply_right (t := S2x512x512x256) (s₁ := S2x512x512x128) (s₂ := S2x512x512x128) 3
    (Read.val_main_v20 (F := Ideal) x0 x2) (Read.val_main_v27 (F := Ideal) x1 x5)
    concatenates_S2x512x512x128_S2x512x512x128_S2x512x512x256_d3 _ rfl rfl (ix4 b i j k) (fun c hc => by
      match c, hc with
      | ⟨0, _⟩, _ => rfl
      | ⟨1, _⟩, _ => rfl
      | ⟨2, _⟩, _ => rfl
      | ⟨3, _⟩, hc => exact absurd rfl hc) (show k.val + 128 = 128 * 1 + k.val by omega)

/-- The weight the dot product meets at output feature h and column k. -/
private theorem idx_weight (b : Fin 2) (i j : Fin 512) (h : Fin 128) (k : Fin 256) :
    Read.ridx_main_v29 (ix4 b i j h) k = ix2 h k :=
  funext fun a => Fin.ext (by match a with | ⟨0, _⟩ => rfl | ⟨1, _⟩ => rfl)

/-- The bias, broadcast over batch, query and key, at (b, i, j, h) is the bias at h. -/
private theorem v31_apply (x7 : FVec Ideal SBias .f32) (b : Fin 2) (i j : Fin 512) (h : Fin 128) :
    Cert.ReferenceIdeal.Read.val_main_v31 (F := Ideal) x7 (ix4 b i j h) = x7 (ix1 h) := by
  rw [Read.val_main_v31_apply, Read.val_main_v30_apply]
  congr 1
  exact funext fun a => Fin.ext (by match a with | ⟨0, _⟩ => rfl)

/-! ## The reference is the specification -/

/-- Where both position arrays name only rows of the table, the reference's last stage is the specification. -/
theorem ref_eq_G (x0 x1 : IVec SPos 32) (x2 x5 : FVec Ideal STab .f32) (x6 : FVec Ideal SLin .f32)
    (x7 : FVec Ideal SBias .f32) (h0 : InTable x0) (h1 : InTable x1) :
    Cert.ReferenceIdeal.Read.val_main_v33 (F := Ideal) x0 x1 x2 x5 x6 x7 = G x0 x1 x2 x5 x6 x7 := by
  funext y
  obtain ⟨b, i, j, h, rfl⟩ : ∃ (b : Fin 2) (i j : Fin 512) (h : Fin 128), y = ix4 b i j h := ⟨_, _, _, _, eq_ix4 y⟩
  rw [G_apply, Read.val_main_v33_apply, Read.val_main_v32_apply, Read.val_main_v29_apply, v31_apply,
    Read.val_main_call0_v0_apply, Read.val_main_call0_cst_apply, sum_halves]
  simp only [v28_apply_fst, v28_apply_snd, v20_apply x0 x2 h0, v27_apply x1 x5 h1, idx_weight,
    Ideal.addf_def, Ideal.maximumf_def, Ideal.ofBits_def]
  rfl

end Cert.RelPos

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelTables.lean ====
/-
  What the kernel's operands hold when the region is entered: the two tables with the linear layer applied and
  transposed, the bias as a column, and the positions re-laid as a column of queries and a row of keys.
-/
import proofs.«430832_j35029753266234_3_alg».proof.Proof.Gen.KernelIdeal.Frame
import proofs.«430832_j35029753266234_3_alg».proof.Proof.Spec
import proofs.«430832_j35029753266234_3_alg».proof.Proof.LibColumn
import Idealize.ShloMosaic.Lib.Pipeline.Value
import Idealize.ShloMosaic.Lib.ValueLayout
import Idealize.ShloMosaic.PureOps.Ideal.Laws
import Idealize.ShloMosaic.Lib.StableHlo.Run

noncomputable section

open scoped BigOperators

namespace Cert.RelPos.KernelSide

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-! ## The host's matrix product at an index -/

/-- Row coordinate of the left operand: the result's row. -/
private theorem dot_lhs_0 (i : S1025x128.Idx) (q : dot_S1025x128_S128x128_S1025x128_1_0_0_1_n_n.contr.Idx) :
    (dot_S1025x128_S128x128_S1025x128_1_0_0_1_n_n.lhsIdx i q 0).val = (i 0).val := by
  unfold DotDims.lhsIdx
  rw [dif_neg (show ¬(0 : Fin S1025x128.rank) ∈ dot_S1025x128_S128x128_S1025x128_1_0_0_1_n_n.lhsBatch by decide),
    dif_pos (show (0 : Fin S1025x128.rank) ∈ dot_S1025x128_S128x128_S1025x128_1_0_0_1_n_n.lhsNonContracting by decide)]
  rfl

/-- Column coordinate of the left operand: the summation index. -/
private theorem dot_lhs_1 (i : S1025x128.Idx) (q : dot_S1025x128_S128x128_S1025x128_1_0_0_1_n_n.contr.Idx) :
    (dot_S1025x128_S128x128_S1025x128_1_0_0_1_n_n.lhsIdx i q 1).val = (q ⟨0, by decide⟩).val :=
  dot_S1025x128_S128x128_S1025x128_1_0_0_1_n_n.lhsIdx_val_of_single rfl i q

/-- Row coordinate of the right operand: the summation index. -/
private theorem dot_rhs_0 (i : S1025x128.Idx) (q : dot_S1025x128_S128x128_S1025x128_1_0_0_1_n_n.contr.Idx) :
    (dot_S1025x128_S128x128_S1025x128_1_0_0_1_n_n.rhsIdx i q 0).val = (q ⟨0, by decide⟩).val :=
  dot_S1025x128_S128x128_S1025x128_1_0_0_1_n_n.rhsIdx_val_of_single rfl i q

/-- Column coordinate of the right operand: the result's column. -/
private theorem dot_rhs_1 (i : S1025x128.Idx) (q : dot_S1025x128_S128x128_S1025x128_1_0_0_1_n_n.contr.Idx) :
    (dot_S1025x128_S128x128_S1025x128_1_0_0_1_n_n.rhsIdx i q 1).val = (i 1).val := by
  unfold DotDims.rhsIdx
  rw [dif_neg (show ¬(1 : Fin S128x128.rank) ∈ dot_S1025x128_S128x128_S1025x128_1_0_0_1_n_n.rhsBatch by decide),
    dif_pos (show (1 : Fin S128x128.rank) ∈ dot_S1025x128_S128x128_S1025x128_1_0_0_1_n_n.rhsNonContracting by decide)]
  rfl

/-- At the ideal values the product of a [1025, 128] table with a [128, 128] matrix is, at (r, h), the sum over the
    shared axis of the products of the entries. -/
private theorem dot_apply (A : FVec Ideal S1025x128 .f32) (B : FVec Ideal S128x128 .f32) (r : Fin 1025) (h : Fin 128) :
    (Host.dotGeneral (F := Ideal) dot_S1025x128_S128x128_S1025x128_1_0_0_1_n_n none A B : FVec Ideal S1025x128 .f32) (ix2 r h)
      = ∑ k : Fin 128, A (ix2 r k) * B (ix2 k h) := by
  simp only [Host.dotGeneral]
  rw [Ideal.dotGeneral_apply,
    ← Equiv.sum_comp (ValueIdx.contrEquiv1 dot_S1025x128_S128x128_S1025x128_1_0_0_1_n_n 128 rfl rfl).symm]
  refine Finset.sum_congr rfl fun k _ => ?_
  have hk := ValueIdx.contrEquiv1_symm_val dot_S1025x128_S128x128_S1025x128_1_0_0_1_n_n 128 rfl rfl k
  have el : dot_S1025x128_S128x128_S1025x128_1_0_0_1_n_n.lhsIdx (ix2 r h)
      ((ValueIdx.contrEquiv1 dot_S1025x128_S128x128_S1025x128_1_0_0_1_n_n 128 rfl rfl).symm k) = ix2 r k :=
    funext fun a => Fin.ext (by
      match a with
      | ⟨0, _⟩ => exact dot_lhs_0 _ _
      | ⟨1, _⟩ => exact (dot_lhs_1 _ _).trans hk)
  have er : dot_S1025x128_S128x128_S1025x128_1_0_0_1_n_n.rhsIdx (ix2 r h)
      ((ValueIdx.contrEquiv1 dot_S1025x128_S128x128_S1025x128_1_0_0_1_n_n 128 rfl rfl).symm k) = ix2 k h :=
    funext fun a => Fin.ext (by
      match a with
      | ⟨0, _⟩ => exact (dot_rhs_0 _ _).trans hk
      | ⟨1, _⟩ => exact dot_rhs_1 _ _)
  rw [el, er]

/-! ## A table operand at an index -/

/-- A 128-column band of the weights, starting at column o = 128 * half, is transposed, multiplied on the left by the
    table, kept in the narrower format (no change at the ideal values) and transposed again. At (h, r) the result is
    row r of the table against that band of row h of the weights. -/
private theorem table_read (tab : FVec Ideal S1025x128 .f32) (W : FVec Ideal S128x256 .f32) (half : Fin 2) (o : Nat)
    (ho : o = 128 * half.val) (hs : S128x256.Slices ![0, o] S128x128) (h : Fin 128) (r : Fin 1025) :
    (transpose S128x1025 [1, 0]
        (truncf .bf16
          (Host.dotGeneral (F := Ideal) dot_S1025x128_S128x128_S1025x128_1_0_0_1_n_n none tab
            (transpose S128x128 [1, 0] (extractStridedSlice S128x128 ![0, o] W hs) transposes_S128x128_S128x128_1_0))
          bitsLt_bf16_f32)
        transposes_S1025x128_S128x1025_1_0 : S128x1025.Idx → EReal) (ix2 h r)
      = proj tab W half r h := by
  unfold proj
  rw [transpose_ix2_apply, truncf_apply, dot_apply]
  refine Finset.sum_congr rfl fun k _ => ?_
  rw [transpose_ix2_apply,
    slice2_axis1_apply o W hs h k ⟨128 * half.val + k.val, by omega⟩ (by show 128 * half.val + k.val = o + k.val; omega)]

/-! ## The reshapes at an index -/

section Casts
variable {α : Type}

/-- A [2, 512] array cast to [2, 512, 1, 1] reads, at (b, i, ·, ·), the operand at (b, i). -/
private theorem cast_column (x : S2x512.Idx → α) (hc : S2x512.ShapeCasts S2x512x1x1) (b : Fin 2) (i : Fin 512) (u v : Fin 1) :
    shapeCast S2x512x1x1 x hc (ix4 b i u v) = x (ix2 b i) :=
  shapeCast_apply x hc _ _ (by
    have hu : u.val = 0 := by omega
    have hv : v.val = 0 := by omega
    rw [Shape.rowMajor_val_two, Shape.rowMajor_val_four]
    show b.val * 512 + i.val = ((b.val * 512 + i.val) * 1 + u.val) * 1 + v.val
    omega)

/-- A [2, 512] array cast to [2, 1, 512] reads, at (b, ·, j), the operand at (b, j). -/
private theorem cast_row (x : S2x512.Idx → α) (hc : S2x512.ShapeCasts S2x1x512) (b : Fin 2) (u : Fin 1) (j : Fin 512) :
    shapeCast S2x1x512 x hc (ix3 b u j) = x (ix2 b j) :=
  shapeCast_apply x hc _ _ (by
    have hu : u.val = 0 := by omega
    rw [Shape.rowMajor_val_two, Shape.rowMajor_val_three]
    show b.val * 512 + j.val = (b.val * 1 + u.val) * 512 + j.val
    omega)

end Casts

/-! ## The operands -/

/-- The first table operand at (h, r): row r of pe_ss against the first 128 columns of row h of W. -/
theorem V_tabS (h : Fin 128) (r : Fin 1025) :
    (V m c main_v9 : S128x1025.Idx → EReal) (ix2 h r)
      = proj (m ((c : Thread nD τ).loc main_arg2)) (m ((c : Thread nD τ).loc main_arg6)) 0 r h := by
  have e : (V m c main_v9 : S128x1025.Idx → EReal)
      = transpose S128x1025 [1, 0]
          (truncf .bf16
            (Host.dotGeneral (F := Ideal) (φ₁ := .f32) (φ₂ := .f32) dot_S1025x128_S128x128_S1025x128_1_0_0_1_n_n none (m ((c : Thread nD τ).loc main_arg2) : FVec Ideal S1025x128 .f32)
              (transpose S128x128 [1, 0]
                (extractStridedSlice S128x128 ![0, 0] (m ((c : Thread nD τ).loc main_arg6) : FVec Ideal S128x256 .f32) slices_S128x256_S128x128_0_0)
                transposes_S128x128_S128x128_1_0))
            bitsLt_bf16_f32)
          transposes_S1025x128_S128x1025_1_0 := by
    dsimp only [Gen.V, Gen.hostOps0]; after_results
  rw [e]
  exact table_read _ _ 0 0 rfl slices_S128x256_S128x128_0_0 h r

/-- The second table operand at (h, r): row r of pe_ee against the last 128 columns of row h of W. -/
theorem V_tabE (h : Fin 128) (r : Fin 1025) :
    (V m c main_v13 : S128x1025.Idx → EReal) (ix2 h r)
      = proj (m ((c : Thread nD τ).loc main_arg5)) (m ((c : Thread nD τ).loc main_arg6)) 1 r h := by
  have e : (V m c main_v13 : S128x1025.Idx → EReal)
      = transpose S128x1025 [1, 0]
          (truncf .bf16
            (Host.dotGeneral (F := Ideal) (φ₁ := .f32) (φ₂ := .f32) dot_S1025x128_S128x128_S1025x128_1_0_0_1_n_n none (m ((c : Thread nD τ).loc main_arg5) : FVec Ideal S1025x128 .f32)
              (transpose S128x128 [1, 0]
                (extractStridedSlice S128x128 ![0, 128] (m ((c : Thread nD τ).loc main_arg6) : FVec Ideal S128x256 .f32) slices_S128x256_S128x128_0_128)
                transposes_S128x128_S128x128_1_0))
            bitsLt_bf16_f32)
          transposes_S1025x128_S128x1025_1_0 := by
    dsimp only [Gen.V, Gen.hostOps0]; after_results
  rw [e]
  exact table_read _ _ 1 128 rfl slices_S128x256_S128x128_0_128 h r

/-- The bias operand is the bias as a column. -/
theorem V_bias (h : Fin 128) (u : Fin 1) :
    (V m c main_v14 : S128x1.Idx → EReal) (ix2 h u) = (m ((c : Thread nD τ).loc main_arg7) : S128.Idx → EReal) (ix1 h) := by
  have e : (V m c main_v14 : S128x1.Idx → EReal)
      = shapeCast S128x1 (m ((c : Thread nD τ).loc main_arg7) : S128.Idx → EReal) shapeCasts_S128_S128x1 := by
    dsimp only [Gen.V, Gen.hostOps0]; after_results; rfl
  rw [e]
  exact Cert.LibColumn.shapeCast_a_a1_apply _ _ h u

/-- The query-side start positions: entry (b, i, ·, ·) is pos_s[b, i]. -/
theorem V_qS (b : Fin 2) (i : Fin 512) (u v : Fin 1) :
    (V m c main_v0 : S2x512x1x1.Idx → BitVec 32) (ix4 b i u v) = (m ((c : Thread nD τ).loc main_arg0) : S2x512.Idx → BitVec 32) (ix2 b i) := by
  have e : (V m c main_v0 : S2x512x1x1.Idx → BitVec 32)
      = shapeCast S2x512x1x1 (m ((c : Thread nD τ).loc main_arg0) : S2x512.Idx → BitVec 32) shapeCasts_S2x512_S2x512x1x1 := by
    dsimp only [Gen.V, Gen.hostOps0]; after_results; rfl
  rw [e]
  exact cast_column _ _ b i u v

/-- The key-side start positions: entry (b, ·, j) is pos_s[b, j]. -/
theorem V_kS (b : Fin 2) (u : Fin 1) (j : Fin 512) :
    (V m c main_v1 : S2x1x512.Idx → BitVec 32) (ix3 b u j) = (m ((c : Thread nD τ).loc main_arg0) : S2x512.Idx → BitVec 32) (ix2 b j) := by
  have e : (V m c main_v1 : S2x1x512.Idx → BitVec 32)
      = shapeCast S2x1x512 (m ((c : Thread nD τ).loc main_arg0) : S2x512.Idx → BitVec 32) shapeCasts_S2x512_S2x1x512 := by
    dsimp only [Gen.V, Gen.hostOps0]; after_results; rfl
  rw [e]
  exact cast_row _ _ b u j

/-- The query-side end positions: entry (b, i, ·, ·) is pos_e[b, i]. -/
theorem V_qE (b : Fin 2) (i : Fin 512) (u v : Fin 1) :
    (V m c main_v2 : S2x512x1x1.Idx → BitVec 32) (ix4 b i u v) = (m ((c : Thread nD τ).loc main_arg1) : S2x512.Idx → BitVec 32) (ix2 b i) := by
  have e : (V m c main_v2 : S2x512x1x1.Idx → BitVec 32)
      = shapeCast S2x512x1x1 (m ((c : Thread nD τ).loc main_arg1) : S2x512.Idx → BitVec 32) shapeCasts_S2x512_S2x512x1x1 := by
    dsimp only [Gen.V, Gen.hostOps0]; after_results; rfl
  rw [e]
  exact cast_column _ _ b i u v

/-- The key-side end positions: entry (b, ·, j) is pos_e[b, j]. -/
theorem V_kE (b : Fin 2) (u : Fin 1) (j : Fin 512) :
    (V m c main_v3 : S2x1x512.Idx → BitVec 32) (ix3 b u j) = (m ((c : Thread nD τ).loc main_arg1) : S2x512.Idx → BitVec 32) (ix2 b j) := by
  have e : (V m c main_v3 : S2x1x512.Idx → BitVec 32)
      = shapeCast S2x1x512 (m ((c : Thread nD τ).loc main_arg1) : S2x512.Idx → BitVec 32) shapeCasts_S2x512_S2x1x512 := by
    dsimp only [Gen.V, Gen.hostOps0]; after_results; rfl
  rw [e]
  exact cast_row _ _ b u j

end Cert.RelPos.KernelSide

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.PayValue.lean ====
/-
  One query row's arithmetic at an index: the two indicator matrices pick one table column each.
-/
import proofs.«430832_j35029753266234_3_alg».proof.Proof.Gen.KernelIdeal.Skeleton
import proofs.«430832_j35029753266234_3_alg».proof.Proof.Spec
import proofs.«430832_j35029753266234_3_alg».proof.Proof.LibDotPlain
import proofs.«430832_j35029753266234_3_alg».proof.Proof.LibColumn
import Idealize.ShloMosaic.Lib.Pipeline.Value
import Idealize.ShloMosaic.Lib.ValueLayout
import Idealize.ShloMosaic.PureOps.Ideal.Laws

noncomputable section

open scoped BigOperators

namespace Cert.RelPos.KernelSide

open Idealize.ShloMosaic Idealize.ShloMosaic.ValueIdx
open Cert.KernelIdeal Cert.KernelIdeal.Gen

/-- The word one query row indexes a table with at key j: the row's query position minus the key's plus 512. -/
def rowWord (q : Vec Ideal S1x1x1x1 .i32) (keys : IVec S1x512 32) (j : Fin 512) : BitVec 32 :=
  q (ix4 (0 : Fin 1) (0 : Fin 1) (0 : Fin 1) (0 : Fin 1)) - keys (ix2 (0 : Fin 1) j) + 512#32

/-! ## Words: a row word passes both cuts, and the row counter meets it at exactly one row -/

/-- A row word is not below zero, so the lower cut leaves it. -/
private theorem maxsi_zero_of_isRow {w : BitVec 32} (hw : IsRow w) : IntOp.maxsi 0#32 w = w := by
  unfold IntOp.maxsi
  have h0 : (0#32 : BitVec 32).toInt = 0 := by decide
  have : w.slt 0#32 = false := by
    rw [BitVec.slt, h0]
    exact decide_eq_false (by have := hw.1; omega)
  rw [this]
  rfl

/-- A row word is at most 1024, so the upper cut leaves it. -/
private theorem minsi_1024_of_isRow {w : BitVec 32} (hw : IsRow w) : IntOp.minsi 1024#32 w = w := by
  unfold IntOp.minsi
  have h0 : (1024#32 : BitVec 32).toInt = 1024 := by decide
  have : (1024#32 : BitVec 32).slt w = false := by
    rw [BitVec.slt, h0]
    exact decide_eq_false (by have := hw.2; omega)
  rw [this]
  rfl

/-- Both cuts leave a row word as it is. -/
private theorem clip_of_isRow {w : BitVec 32} (hw : IsRow w) : IntOp.minsi 1024#32 (IntOp.maxsi 0#32 w) = w := by
  rw [maxsi_zero_of_isRow hw, minsi_1024_of_isRow hw]

/-- The word that counts to row r is the row word w exactly when r is the row w names. -/
private theorem ofNat_eq_iff_rowOf {w : BitVec 32} (hw : IsRow w) (r : Fin 1025) :
    BitVec.ofNat 32 r.val = w ↔ r = rowOf w := by
  have hr : r.val < 2 ^ 32 := by have := r.isLt; omega
  constructor
  · intro e
    apply Fin.ext
    rw [rowOf_val hw, ← e, BitVec.toNat_ofNat, Nat.mod_eq_of_lt hr]
  · intro e
    apply BitVec.eq_of_toNat_eq
    rw [BitVec.toNat_ofNat, Nat.mod_eq_of_lt hr, e, rowOf_val hw]

/-- One entry of the indicator column: the comparison bit, widened and read as a number, is 1 at the row the word names
    and 0 at every other row. -/
private theorem indicator_entry {w : BitVec 32} (hw : IsRow w) (r : Fin 1025) :
    ((((IntOp.cmpi .eq (BitVec.ofNat 32 r.val) w).setWidth 32).toInt : ℝ) : EReal) = if r = rowOf w then 1 else 0 := by
  unfold IntOp.cmpi
  by_cases hr : r = rowOf w
  · have e : (BitVec.ofNat 32 r.val == w) = true := by
      rw [beq_iff_eq]; exact (ofNat_eq_iff_rowOf hw r).mpr hr
    rw [if_pos hr]
    show ((((BitVec.ofBool (BitVec.ofNat 32 r.val == w)).setWidth 32).toInt : ℝ) : EReal) = 1
    rw [e]
    have : ((BitVec.ofBool true).setWidth 32).toInt = 1 := by decide
    rw [this]; simp
  · have e : (BitVec.ofNat 32 r.val == w) = false := by
      rw [beq_eq_false_iff_ne]; exact fun h => hr ((ofNat_eq_iff_rowOf hw r).mp h)
    rw [if_neg hr]
    show ((((BitVec.ofBool (BitVec.ofNat 32 r.val == w)).setWidth 32).toInt : ℝ) : EReal) = 0
    rw [e]
    have : ((BitVec.ofBool false).setWidth 32).toInt = 0 := by decide
    rw [this]; simp

/-! ## The term, with the cut row of words and its indicator matrix named -/

/-- The row of words one query position makes against all keys, cut to the table's rows, as the program builds it. -/
private def clipped (q : Vec Ideal S1x1x1x1 .i32) (keys : IVec S1x512 32) : IVec S1x512 32 :=
  minsi (broadcast S1x512 1024#32)
    (maxsi (broadcast S1x512 0#32)
      (addi (subi (broadcastTo S1x512 (shapeCast S1x1 q Facts₀.shapeCasts_S1x1x1x1_S1x1) Facts₀.broadcasts_S1x1_S1x512) keys)
        (broadcast S1x512 512#32)))

/-- The indicator matrix of a row of words: entry (r, j) compares the row counter r with word j. -/
private def indicator (c : IVec S1x512 32) : FVec Ideal S1025x512 .bf16 :=
  truncf .bf16
    (sitofp .f32
      (extui 32 (cmpi .eq (iota .tc S1025x512 32 [0] Facts₀.iota_S1025x512_d0_w32)
        (broadcastTo S1025x512 c Facts₀.broadcasts_S1x512_S1025x512)) Facts₀.natLt_1_32))
    Facts₀.bitsLt_bf16_f32

/-- The one term the program computes, with its two indicator matrices named. -/
private theorem pay7_eq (v2 v4 : IVec S1x512 32) (v6 v8 : FVec Ideal S128x1025 .bf16) (v10 : FVec Ideal S128x1 .f32)
    (v15 v18 : Vec Ideal S1x1x1x1 .i32) :
    k0_pay7 (F := Ideal) (iota .tc S1025x512 32 [0] Facts₀.iota_S1025x512_d0_w32) v2 v4 v6 v8 v10 v15 v18
      = transpose S512x128 [1, 0]
          (maximumf
            (addf
              (addf
                (matmul dot_S128x1025_S1025x512_S128x512_1_0_0_1_n_n none v6 (indicator (clipped v15 v2))
                  (constant (F := Ideal) S128x512 .f32 0x00000000#32))
                (matmul dot_S128x1025_S1025x512_S128x512_1_0_0_1_n_n none v8 (indicator (clipped v18 v4))
                  (constant (F := Ideal) S128x512 .f32 0x00000000#32)))
              (broadcastTo S128x512 v10 Facts₀.broadcasts_S128x1_S128x512))
            (broadcast S128x512 (Scalar.ofBits (F := Ideal) .f32 0x00000000#32)))
          Facts₀.transposes_S128x512_p1_0_S512x128 := rfl

/-! ## Each named part read at an index -/

/-- The one-element array of a query position, cast to [1, 1], reads its one element. -/
private theorem shapeCast_1111_11_apply {α : Type} (x : S1x1x1x1.Idx → α) (h : S1x1x1x1.ShapeCasts S1x1) :
    shapeCast S1x1 x h (ix2 (0 : Fin 1) (0 : Fin 1)) = x (ix4 (0 : Fin 1) (0 : Fin 1) (0 : Fin 1) (0 : Fin 1)) :=
  shapeCast_apply x h _ _ (by
    rw [Shape.rowMajor_val_four, Shape.rowMajor_val_two]
    rfl)

/-- The cut row of words at key j: the two cuts applied to the word of the query position and key j. -/
private theorem clipped_apply (q : Vec Ideal S1x1x1x1 .i32) (keys : IVec S1x512 32) (j : Fin 512) :
    clipped q keys (ix2 (0 : Fin 1) j) = IntOp.minsi 1024#32 (IntOp.maxsi 0#32 (rowWord q keys j)) := by
  show IntOp.minsi 1024#32 (IntOp.maxsi 0#32
      (IntOp.addi (IntOp.subi
        (broadcastTo S1x512 (shapeCast S1x1 q Facts₀.shapeCasts_S1x1x1x1_S1x1) Facts₀.broadcasts_S1x1_S1x512 (ix2 (0 : Fin 1) j))
        (keys (ix2 (0 : Fin 1) j))) 512#32)) = _
  rw [Cert.LibColumn.broadcastTo_a1_ab_apply, shapeCast_1111_11_apply]
  rfl

/-- The row counter at (r, j) is r as a word. -/
private theorem iota_apply (r : Fin 1025) (j : Fin 512) :
    iota .tc S1025x512 32 [0] Facts₀.iota_S1025x512_d0_w32 (ix2 r j) = BitVec.ofNat 32 r.val := by
  show BitVec.ofNat 32 (0 * 1025 + r.val) = _
  rw [Nat.zero_mul, Nat.zero_add]

/-- The indicator matrix at (r, j), for a row word at j: 1 where r is the row the word names, else 0. -/
private theorem indicator_apply (c : IVec S1x512 32) (r : Fin 1025) (j : Fin 512) (hc : IsRow (c (ix2 (0 : Fin 1) j))) :
    indicator c (ix2 r j) = if r = rowOf (c (ix2 (0 : Fin 1) j)) then 1 else 0 := by
  show ((((IntOp.cmpi .eq (iota .tc S1025x512 32 [0] Facts₀.iota_S1025x512_d0_w32 (ix2 r j))
      (broadcastTo S1025x512 c Facts₀.broadcasts_S1x512_S1025x512 (ix2 r j))).setWidth 32).toInt : ℝ) : EReal) = _
  rw [iota_apply, broadcastTo_1b_ab_apply]
  exact indicator_entry hc r

/-- A product against an indicator matrix picks the column of the table the word names. -/
private theorem matmul_indicator_apply (T : FVec Ideal S128x1025 .bf16) (c : IVec S1x512 32) (h : Fin 128) (j : Fin 512)
    (hc : IsRow (c (ix2 (0 : Fin 1) j))) :
    matmul dot_S128x1025_S1025x512_S128x512_1_0_0_1_n_n none T (indicator c)
        (constant (F := Ideal) S128x512 .f32 0x00000000#32) (ix2 h j)
      = T (ix2 h (rowOf (c (ix2 (0 : Fin 1) j)))) := by
  refine (Cert.LibDotPlain.matmul_zero_apply (m := 128) (k := 1025) (n := 512)
    Facts₀.dot_S128x1025_S1025x512_S128x512_1_0_0_1_n_n_wf none T (indicator c) h j).trans ?_
  refine sum_mul_indicator (fun r => T (ix2 h r)) (rowOf (c (ix2 (0 : Fin 1) j))) (fun r => indicator c (ix2 r j)) ?_ ?_
  · rw [indicator_apply c _ j hc, if_pos rfl]
  · intro r hr
    rw [indicator_apply c r j hc, if_neg hr]

/-! ## The result at an index -/

/-- One query row's result at key j and feature h, where both words are rows of the table: the two table
    operands read at the rows the words name, plus the bias, cut off below at zero. -/
theorem pay7_apply (v2 v4 : IVec S1x512 32) (v6 v8 : FVec Ideal S128x1025 .bf16) (v10 : FVec Ideal S128x1 .f32)
    (v15 v18 : Vec Ideal S1x1x1x1 .i32) (j : Fin 512) (h : Fin 128)
    (hS : IsRow (rowWord v15 v2 j)) (hE : IsRow (rowWord v18 v4 j)) :
    k0_pay7 (F := Ideal) (iota .tc S1025x512 32 [0] Facts₀.iota_S1025x512_d0_w32) v2 v4 v6 v8 v10 v15 v18 (ix2 j h)
      = max (v6 (ix2 h (rowOf (rowWord v15 v2 j))) + v8 (ix2 h (rowOf (rowWord v18 v4 j))) + v10 (ix2 h (0 : Fin 1)))
          (Ideal.ofBits .f32 0x00000000#32) := by
  have cS : clipped v15 v2 (ix2 (0 : Fin 1) j) = rowWord v15 v2 j := by rw [clipped_apply, clip_of_isRow hS]
  have cE : clipped v18 v4 (ix2 (0 : Fin 1) j) = rowWord v18 v4 j := by rw [clipped_apply, clip_of_isRow hE]
  have mS := matmul_indicator_apply v6 (clipped v15 v2) h j (by rw [cS]; exact hS)
  have mE := matmul_indicator_apply v8 (clipped v18 v4) h j (by rw [cE]; exact hE)
  rw [cS] at mS
  rw [cE] at mE
  rw [pay7_eq, transpose_ix2_apply, maximumf_apply, addf_apply, addf_apply, mS, mE,
    Cert.LibColumn.broadcastTo_a1_ab_apply, broadcast_apply]
  rfl

end Cert.RelPos.KernelSide

end
-- ==== Proof.BlockValue.lean ====
/-
  What one grid point leaves in the output block: the loop over the sixteen query rows of the block stores, at trip q,
  the [512, 128] slab of that row's results at offset (0, q, 0, 0); the slabs tile the block, so the block read at
  (0, q, j, h) is query row q's arithmetic at (j, h), with that row's two query positions read from the query columns.
-/
import proofs.«430832_j35029753266234_3_alg».proof.Proof.Gen.KernelIdeal.Frame
import Idealize.ShloMosaic.Lib.Pipeline.Value
import Idealize.ShloMosaic.Lib.ValueLayout
import Idealize.ShloMosaic.Lib.Writes

set_option maxRecDepth 16384

noncomputable section

namespace Cert.RelPos.KernelSide

open Idealize.ShloMosaic Idealize.ShloMosaic.ValueIdx Idealize.ShloMosaic.TcCoe Idealize.ShloMosaic.Tactic
open Idealize.SL Idealize.SL.Sem
open Cert.KernelIdeal Cert.KernelIdeal.Gen

variable {F : FTy → Type} [FloatOps F]

/-- The loop makes sixteen trips. -/
theorem trips_eq : k0_t1_loop.trips = 16 := by decide +kernel

/-- A [512, 128] array cast to a [1, 1, 512, 128] slab reads, at (·, ·, j, h), the array at (j, h). -/
theorem slab_apply {α : Type} (x : S512x128.Idx → α) (hc : S512x128.ShapeCasts S1x1x512x128) (y : S1x1x512x128.Idx) :
    shapeCast S1x1x512x128 x hc y = x (ix2 (⟨(y 2).val, (y 2).isLt⟩ : Fin 512) (⟨(y 3).val, (y 3).isLt⟩ : Fin 128)) :=
  shapeCast_apply x hc _ _ (by
    have h0 : (y 0).val < 1 := (y 0).isLt
    have h1 : (y 1).val < 1 := (y 1).isLt
    rw [Shape.rowMajor_val_two, Shape.rowMajor_val_four]
    show (y 2).val * 128 + (y 3).val = (((y 0).val * 1 + (y 1).val) * 512 + (y 2).val) * 128 + (y 3).val
    omega)

section Trip

variable (𝒱 : Variants) (bd : Option 𝒱.V) (c : Dev nD) (i : grid0.Coords) (arg3 : Memref sig .tc .vmem S1x16x1x1 .i32) (harg3 : arg3.IsWhole) (arg4 : Memref sig .tc .vmem S1x1x512 .i32) (harg4 : arg4.IsWhole) (arg5 : Memref sig .tc .vmem S1x16x1x1 .i32) (harg5 : arg5.IsWhole) (arg6 : Memref sig .tc .vmem S1x1x512 .i32) (harg6 : arg6.IsWhole) (arg7 : Memref sig .tc .vmem S128x1025 .bf16) (harg7 : arg7.IsWhole) (arg8 : Memref sig .tc .vmem S128x1025 .bf16) (harg8 : arg8.IsWhole) (arg9 : Memref sig .tc .vmem S128x1 .f32) (harg9 : arg9.IsWhole) (arg10 : Memref sig .tc .vmem S1x16x512x128 .f32) (harg10 : arg10.IsWhole) (v0 : IVec S1025x512 32) (v1 : Vec F S1x1x512 .i32) (v3 : Vec F S1x1x512 .i32) (v5 : Vec F S128x1025 .bf16) (v7 : Vec F S128x1025 .bf16) (v9 : Vec F S128x1 .f32) (X3 : BufTy.Contents (Elt F) arg3.view.ty) (X5 : BufTy.Contents (Elt F) arg5.view.ty)

/-- Query row k's arithmetic: the row's two query positions are read from the query columns at row k. -/
def rowVal (k : Fin k0_t1_loop.trips) : FVec F S512x128 .f32 :=
  k0_pay7 v0 (k0_pay1 v1) (k0_pay2 v3) (k0_pay3 v5) (k0_pay4 v7) (k0_pay5 v9)
    (View.readAt (Elt F) arg3.view (Rect.unit (s := S1x16x1x1) (k0_off1 k) S1x1x1x1.size (k0_off1_inb k)).toLoadRect X3)
    (View.readAt (Elt F) arg5.view (Rect.unit (s := S1x16x1x1) (k0_off1 k) S1x1x1x1.size (k0_off1_inb k)).toLoadRect X5)

/-- One trip's single piece, spelt out: the slab rectangle at the trip's offsets, holding the row's arithmetic. -/
theorem tripL_eq (k : Fin k0_t1_loop.trips) :
    tripL_k0_t1 (F := F) 𝒱 c bd i arg3 harg3 arg4 harg4 arg5 harg5 arg6 harg6 arg7 harg7 arg8 harg8 arg9 harg9 arg10 harg10 v0 v1 v3 v5 v7 v9 X3 X5 k
      = [⟨Rect.unit (s := S1x16x512x128) (k0_off2 k) S1x1x512x128.size (k0_off2_inb k),
          k0_pay6 (rowVal arg3 arg5 v0 v1 v3 v5 v7 v9 X3 X5 k)⟩] := by
  unfold tripL_k0_t1 trip_k0_t1 rowVal
  dsimp only
  sl_unfold_words
  rfl

/-- Every piece the trips before n wrote is some trip's piece. -/
theorem mem_pb : ∀ (n : ℕ) (p : View.Piece (Elt F) S1x16x512x128 .f32), p ∈ pb_k0_t1 (F := F) 𝒱 c bd i arg3 harg3 arg4 harg4 arg5 harg5 arg6 harg6 arg7 harg7 arg8 harg8 arg9 harg9 arg10 harg10 v0 v1 v3 v5 v7 v9 X3 X5 n →
    ∃ k : Fin k0_t1_loop.trips, p ∈ tripL_k0_t1 (F := F) 𝒱 c bd i arg3 harg3 arg4 harg4 arg5 harg5 arg6 harg6 arg7 harg7 arg8 harg8 arg9 harg9 arg10 harg10 v0 v1 v3 v5 v7 v9 X3 X5 k
  | 0, p, hp => by
    rw [pb_k0_t1.eq_1] at hp
    exact absurd hp List.not_mem_nil
  | n + 1, p, hp => by
    rw [pb_k0_t1.eq_2] at hp
    unfold pb_k0_t1Step at hp
    split at hp
    · rename_i hlt
      rcases List.mem_append.mp hp with h | h
      · exact ⟨⟨n, hlt⟩, h⟩
      · exact mem_pb n p h
    · exact mem_pb n p hp

/-- The block as ONE function of its index: at (·, q, j, h), query row q's arithmetic at (j, h). -/
def blockFn : S1x16x512x128.Idx → Elt F .f32 := fun y =>
  rowVal arg3 arg5 v0 v1 v3 v5 v7 v9 X3 X5 ⟨(y 1).val, by rw [trips_eq]; exact (y 1).isLt⟩
    (ix2 (⟨(y 2).val, (y 2).isLt⟩ : Fin 512) (⟨(y 3).val, (y 3).isLt⟩ : Fin 128))

/-- Every piece the trips before n wrote is the block function on its rectangle. -/
theorem pieces_agree (n : ℕ) (p : View.Piece (Elt F) S1x16x512x128 .f32)
    (hp : p ∈ pb_k0_t1 (F := F) 𝒱 c bd i arg3 harg3 arg4 harg4 arg5 harg5 arg6 harg6 arg7 harg7 arg8 harg8 arg9 harg9 arg10 harg10 v0 v1 v3 v5 v7 v9 X3 X5 n) (x : p.1.shape.Idx) :
    p.2 x = blockFn arg3 arg5 v0 v1 v3 v5 v7 v9 X3 X5 (p.1.emb x) := by
  obtain ⟨k, hk⟩ := mem_pb 𝒱 bd c i arg3 harg3 arg4 harg4 arg5 harg5 arg6 harg6 arg7 harg7 arg8 harg8 arg9 harg9 arg10 harg10 v0 v1 v3 v5 v7 v9 X3 X5 n p hp
  rw [tripL_eq, List.mem_singleton] at hk
  subst hk
  show k0_pay6 (rowVal arg3 arg5 v0 v1 v3 v5 v7 v9 X3 X5 k) x = _
  unfold k0_pay6
  refine (slab_apply _ _ x).trans ?_
  unfold blockFn
  have o1 : (k0_off2 k) 1 = k.val := by rw [k0_off2_eq k]; rfl
  have o2 : (k0_off2 k) 2 = 0 := by rw [k0_off2_eq k]; rfl
  have o3 : (k0_off2 k) 3 = 0 := by rw [k0_off2_eq k]; rfl
  have e1 : (((Rect.unit (s := S1x16x512x128) (k0_off2 k) S1x1x512x128.size (k0_off2_inb k)).emb x) 1).val = k.val := by
    show (k0_off2 k) 1 + 1 * (x 1).val = k.val
    have h1 : (x 1).val < 1 := (x 1).isLt
    omega
  have e2 : (((Rect.unit (s := S1x16x512x128) (k0_off2 k) S1x1x512x128.size (k0_off2_inb k)).emb x) 2).val = (x 2).val := by
    show (k0_off2 k) 2 + 1 * (x 2).val = (x 2).val
    omega
  have e3 : (((Rect.unit (s := S1x16x512x128) (k0_off2 k) S1x1x512x128.size (k0_off2_inb k)).emb x) 3).val = (x 3).val := by
    show (k0_off2 k) 3 + 1 * (x 3).val = (x 3).val
    omega
  congr 1
  · exact Fin.ext e1.symm
  · exact congrArg₂ ix2 (Fin.ext e2.symm) (Fin.ext e3.symm)

end Trip

section Block

variable (c : Dev nD) (i : grid0.Coords) (arg3 : Memref sig .tc .vmem S1x16x1x1 .i32) (harg3 : arg3.IsWhole) (arg4 : Memref sig .tc .vmem S1x1x512 .i32) (harg4 : arg4.IsWhole) (arg5 : Memref sig .tc .vmem S1x16x1x1 .i32) (harg5 : arg5.IsWhole) (arg6 : Memref sig .tc .vmem S1x1x512 .i32) (harg6 : arg6.IsWhole) (arg7 : Memref sig .tc .vmem S128x1025 .bf16) (harg7 : arg7.IsWhole) (arg8 : Memref sig .tc .vmem S128x1025 .bf16) (harg8 : arg8.IsWhole) (arg9 : Memref sig .tc .vmem S128x1 .f32) (harg9 : arg9.IsWhole) (arg10 : Memref sig .tc .vmem S1x16x512x128 .f32) (harg10 : arg10.IsWhole) (x0 : Vec F S1x16x1x1 .i32) (x1 : Vec F S1x1x512 .i32) (x2 : Vec F S1x16x1x1 .i32) (x3 : Vec F S1x1x512 .i32) (x4 : Vec F S128x1025 .bf16) (x5 : Vec F S128x1025 .bf16) (x6 : Vec F S128x1 .f32)

/-- The run's pieces are those of the sixteen trips, over the values the body loads before the loop. -/
theorem run_pieces :
    (kernelRun0_A (F := F) c i arg3 harg3 arg4 harg4 arg5 harg5 arg6 harg6 arg7 harg7 arg8 harg8 arg9 harg9 arg10 harg10 x0 x1 x2 x3 x4 x5 x6).1
      = pb_k0_t1 (F := F) Variants.none c none i arg3 harg3 arg4 harg4 arg5 harg5 arg6 harg6 arg7 harg7 arg8 harg8 arg9 harg9 arg10 harg10
          (iota .tc S1025x512 32 [0] Facts₀.iota_S1025x512_d0_w32)
          (View.readAt (Elt F) arg4.view (Rect.unit (s := S1x1x512) ![0, 0, 0] S1x1x512.size Facts₀.inb_S1x1x512_S1x1x512_0_0_0).toLoadRect (harg4.unread x1))
          (View.readAt (Elt F) arg6.view (Rect.unit (s := S1x1x512) ![0, 0, 0] S1x1x512.size Facts₀.inb_S1x1x512_S1x1x512_0_0_0).toLoadRect (harg6.unread x3))
          (View.readAt (Elt F) arg7.view (Rect.unit (s := S128x1025) ![0, 0] S128x1025.size Facts₀.inb_S128x1025_S128x1025_0_0).toLoadRect (harg7.unread x4))
          (View.readAt (Elt F) arg8.view (Rect.unit (s := S128x1025) ![0, 0] S128x1025.size Facts₀.inb_S128x1025_S128x1025_0_0).toLoadRect (harg8.unread x5))
          (View.readAt (Elt F) arg9.view (Rect.unit (s := S128x1) ![0, 0] S128x1.size Facts₀.inb_S128x1_S128x1_0_0).toLoadRect (harg9.unread x6))
          (harg3.unread x0) (harg5.unread x2) k0_t1_loop.trips := by
  unfold kernelRun0_A
  dsimp only
  sl_unfold_words
  rfl

/-- The block at (·, q, j, h) is query row q's arithmetic at (j, h): the key rows, the two table operands and the bias
    column as the point's input blocks hold them, the two query positions read at row q of the query columns. -/
theorem out_block_apply (q : Fin 16) (j : Fin 512) (h : Fin 128) :
    out0_A_7 (F := F) c i arg3 harg3 arg4 harg4 arg5 harg5 arg6 harg6 arg7 harg7 arg8 harg8 arg9 harg9 arg10 harg10 x0 x1 x2 x3 x4 x5 x6
        (ix4 (0 : Fin 1) q j h)
      = k0_pay7 (F := F) (iota .tc S1025x512 32 [0] Facts₀.iota_S1025x512_d0_w32) (k0_pay1 x1) (k0_pay2 x3) (k0_pay3 x4) (k0_pay4 x5) (k0_pay5 x6)
          (View.ld x0 (Rect.unit (s := S1x16x1x1) (k0_off1 ⟨q.val, by rw [trips_eq]; exact q.isLt⟩) S1x1x1x1.size (k0_off1_inb _)))
          (View.ld x2 (Rect.unit (s := S1x16x1x1) (k0_off1 ⟨q.val, by rw [trips_eq]; exact q.isLt⟩) S1x1x1x1.size (k0_off1_inb _)))
          (ix2 j h) := by
  have hz3 : (![0, 0, 0] : Fin 3 → ℕ) = fun _ => 0 := by funext a; fin_cases a <;> rfl
  have hz2 : (![0, 0] : Fin 2 → ℕ) = fun _ => 0 := by funext a; fin_cases a <;> rfl
  unfold out0_A_7
  rw [run_pieces]
  refine (View.read_writes_apply_of_pieces VO0_7 _ (blockFn arg3 arg5 _ _ _ _ _ _ _ _) _
    (fun p hp x => pieces_agree Variants.none none c i arg3 harg3 arg4 harg4 arg5 harg5 arg6 harg6 arg7 harg7 arg8 harg8 arg9 harg9 arg10 harg10 _ _ _ _ _ _ _ _ k0_t1_loop.trips p hp x) _ ?_).trans ?_
  · have hc := cover0_A_7 (F := F) c i arg3 harg3 arg4 harg4 arg5 harg5 arg6 harg6 arg7 harg7 arg8 harg8 arg9 harg9 arg10 harg10 x0 x1 x2 x3 x4 x5 x6 (ix4 (0 : Fin 1) q j h)
    rwa [run_pieces] at hc
  · unfold blockFn rowVal
    simp only [View.readAt_eq_ld, harg3.read_unread, harg4.read_unread, harg5.read_unread, harg6.read_unread, harg7.read_unread,
      harg8.read_unread, harg9.read_unread, View.ld_unit_zero (S := S1x1x512) hz3, View.ld_unit_zero (S := S128x1025) hz2,
      View.ld_unit_zero (S := S128x1) hz2]

end Block

end Cert.RelPos.KernelSide

end
-- ==== Proof.ArrValue.lean ====
/-
  From the blocks to the array. Grid point t = (b, p, 0) handles batch b and the sixteen query rows 16 p .. 16 p + 15:
  its query-column blocks are rows 16 p .. 16 p + 15 of batch b's positions, its key-row blocks are all of batch b's
  positions, the two table operands and the bias column come whole, and it writes back the [1, 16, 512, 128] block at
  block index (b, p, 0, 0). The 64 blocks tile the result array, so the array ends at the specification everywhere.
-/
import proofs.«430832_j35029753266234_3_alg».proof.Proof.Gen.KernelIdeal.Value
import proofs.«430832_j35029753266234_3_alg».proof.Proof.Spec
import proofs.«430832_j35029753266234_3_alg».proof.Proof.KernelTables
import proofs.«430832_j35029753266234_3_alg».proof.Proof.PayValue
import proofs.«430832_j35029753266234_3_alg».proof.Proof.BlockValue

set_option maxRecDepth 16384

noncomputable section

namespace Cert.RelPos.KernelSide

open Idealize.ShloMosaic Idealize.ShloMosaic.ValueIdx Idealize.ShloMosaic.TcCoe Idealize.SL.Sem
open Idealize.ShloMosaic.Pipeline (Dat)
open Cert.KernelIdeal Cert.KernelIdeal.Gen

/-- How the blocks of the eight operands move with the grid point: the query columns follow the output's batch and
    row-block indices, the key rows its batch index, the tables and the bias do not move, and the output's block index
    is (b, p, 0, 0) with b ≤ 1 and p ≤ 31. Decided over the 64 points. -/
theorem idx_facts : ∀ t : Fin cfg0.N,
    win0_0.index t = ![win0_7.index t 0, win0_7.index t 1, 0, 0]
    ∧ win0_1.index t = ![win0_7.index t 0, 0, 0]
    ∧ win0_2.index t = ![win0_7.index t 0, win0_7.index t 1, 0, 0]
    ∧ win0_3.index t = ![win0_7.index t 0, 0, 0]
    ∧ win0_4.index t = ![0, 0] ∧ win0_5.index t = ![0, 0] ∧ win0_6.index t = ![0, 0]
    ∧ win0_7.index t 0 ≤ 1 ∧ win0_7.index t 1 ≤ 31 ∧ win0_7.index t 2 = 0 ∧ win0_7.index t 3 = 0 :=
  (by decide +kernel : ∀ t : Fin grid0.N, _)

/-- Every block index (b, p, 0, 0) is some point's. -/
theorem idx_onto : ∀ (b : Fin 2) (p : Fin 32), ∃ t : Fin cfg0.N, win0_7.index t = ![b.val, p.val, 0, 0] :=
  (by decide +kernel : ∀ (b : Fin 2) (p : Fin 32), ∃ t : Fin grid0.N, win0_7.index t = ![b.val, p.val, 0, 0])

variable (m : (ℓ : Loc nD τ sig) → Buf (Elt Ideal) ℓ) (c : Dev nD)

/-- The first table operand's block is the whole operand. -/
theorem blk_tabS (t : Fin cfg0.N) (h : Fin 128) (r : Fin 1025) :
    (iblk m c 4 t : S128x1025.Idx → EReal) (ix2 h r)
      = proj (m ((c : Thread nD τ).loc main_arg2)) (m ((c : Thread nD τ).loc main_arg6)) 0 r h := by
  obtain ⟨-, -, -, -, e4, -, -, -, -, -, -⟩ := idx_facts t
  unfold iblk
  show (V m c main_v9 : S128x1025.Idx → EReal) (((cfg0.win 4).blk t).view.emb (ix2 h r)) = _
  have he : ((cfg0.win 4).blk t).view.emb (ix2 h r) = ix2 h r := by
    funext a; apply Fin.ext
    match a with
    | ⟨0, _⟩ => show win0_4.index t (0 : Fin 2) * 128 + 1 * h.val = h.val; rw [e4]; show 0 * 128 + 1 * h.val = h.val; omega
    | ⟨1, _⟩ => show win0_4.index t (1 : Fin 2) * 1025 + 1 * r.val = r.val; rw [e4]; show 0 * 1025 + 1 * r.val = r.val; omega
  rw [he]
  exact V_tabS m c h r

/-- The batch a grid point handles. -/
def bOf (t : Fin cfg0.N) : Fin 2 := ⟨win0_7.index t 0, by have := (idx_facts t).2.2.2.2.2.2.2.1; omega⟩

/-- Query row q of the block of point t, as a row of the batch: 16 p + q. -/
def rowAt (t : Fin cfg0.N) (q : Fin 16) : Fin 512 :=
  ⟨win0_7.index t 1 * 16 + q.val, by have := (idx_facts t).2.2.2.2.2.2.2.2.1; have := q.isLt; omega⟩

/-- The second table operand's block is the whole operand. -/
theorem blk_tabE (t : Fin cfg0.N) (h : Fin 128) (r : Fin 1025) :
    (iblk m c 5 t : S128x1025.Idx → EReal) (ix2 h r)
      = proj (m ((c : Thread nD τ).loc main_arg5)) (m ((c : Thread nD τ).loc main_arg6)) 1 r h := by
  obtain ⟨-, -, -, -, -, e5, -, -, -, -, -⟩ := idx_facts t
  unfold iblk
  show (V m c main_v13 : S128x1025.Idx → EReal) (((cfg0.win 5).blk t).view.emb (ix2 h r)) = _
  have he : ((cfg0.win 5).blk t).view.emb (ix2 h r) = ix2 h r := by
    funext a; apply Fin.ext
    match a with
    | ⟨0, _⟩ => show win0_5.index t (0 : Fin 2) * 128 + 1 * h.val = h.val; rw [e5]; show 0 * 128 + 1 * h.val = h.val; omega
    | ⟨1, _⟩ => show win0_5.index t (1 : Fin 2) * 1025 + 1 * r.val = r.val; rw [e5]; show 0 * 1025 + 1 * r.val = r.val; omega
  rw [he]
  exact V_tabE m c h r

/-- The bias column's block is the whole column. -/
theorem blk_bias (t : Fin cfg0.N) (h : Fin 128) :
    (iblk m c 6 t : S128x1.Idx → EReal) (ix2 h (0 : Fin 1))
      = (m ((c : Thread nD τ).loc main_arg7) : S128.Idx → EReal) (ix1 h) := by
  obtain ⟨-, -, -, -, -, -, e6, -, -, -, -⟩ := idx_facts t
  unfold iblk
  show (V m c main_v14 : S128x1.Idx → EReal) (((cfg0.win 6).blk t).view.emb (ix2 h (0 : Fin 1))) = _
  have he : ((cfg0.win 6).blk t).view.emb (ix2 h (0 : Fin 1)) = ix2 h (0 : Fin 1) := by
    funext a; apply Fin.ext
    match a with
    | ⟨0, _⟩ => show win0_6.index t (0 : Fin 2) * 128 + 1 * h.val = h.val; rw [e6]; show 0 * 128 + 1 * h.val = h.val; omega
    | ⟨1, _⟩ => show win0_6.index t (1 : Fin 2) * 1 + 1 * 0 = 0; rw [e6]; rfl
  rw [he]
  exact V_bias m c h 0

/-- The key row of start positions at point t is batch b's start positions. -/
theorem blk_kS (t : Fin cfg0.N) (j : Fin 512) :
    (iblk m c 1 t : S1x1x512.Idx → BitVec 32) (ix3 (0 : Fin 1) (0 : Fin 1) j)
      = (m ((c : Thread nD τ).loc main_arg0) : S2x512.Idx → BitVec 32) (ix2 (bOf t) j) := by
  obtain ⟨-, e1, -, -, -, -, -, -, -, -, -⟩ := idx_facts t
  unfold iblk
  show (V m c main_v1 : S2x1x512.Idx → BitVec 32) (((cfg0.win 1).blk t).view.emb (ix3 (0 : Fin 1) (0 : Fin 1) j)) = _
  have he : ((cfg0.win 1).blk t).view.emb (ix3 (0 : Fin 1) (0 : Fin 1) j) = ix3 (bOf t) (0 : Fin 1) j := by
    funext a; apply Fin.ext
    match a with
    | ⟨0, _⟩ => show win0_1.index t (0 : Fin 3) * 1 + 1 * 0 = win0_7.index t 0; rw [e1]; show win0_7.index t 0 * 1 + 1 * 0 = win0_7.index t 0; omega
    | ⟨1, _⟩ => show win0_1.index t (1 : Fin 3) * 1 + 1 * 0 = 0; rw [e1]; rfl
    | ⟨2, _⟩ => show win0_1.index t (2 : Fin 3) * 512 + 1 * j.val = j.val; rw [e1]; show 0 * 512 + 1 * j.val = j.val; omega
  rw [he]
  exact V_kS m c (bOf t) 0 j

/-- The key row of end positions at point t is batch b's end positions. -/
theorem blk_kE (t : Fin cfg0.N) (j : Fin 512) :
    (iblk m c 3 t : S1x1x512.Idx → BitVec 32) (ix3 (0 : Fin 1) (0 : Fin 1) j)
      = (m ((c : Thread nD τ).loc main_arg1) : S2x512.Idx → BitVec 32) (ix2 (bOf t) j) := by
  obtain ⟨-, -, -, e3, -, -, -, -, -, -, -⟩ := idx_facts t
  unfold iblk
  show (V m c main_v3 : S2x1x512.Idx → BitVec 32) (((cfg0.win 3).blk t).view.emb (ix3 (0 : Fin 1) (0 : Fin 1) j)) = _
  have he : ((cfg0.win 3).blk t).view.emb (ix3 (0 : Fin 1) (0 : Fin 1) j) = ix3 (bOf t) (0 : Fin 1) j := by
    funext a; apply Fin.ext
    match a with
    | ⟨0, _⟩ => show win0_3.index t (0 : Fin 3) * 1 + 1 * 0 = win0_7.index t 0; rw [e3]; show win0_7.index t 0 * 1 + 1 * 0 = win0_7.index t 0; omega
    | ⟨1, _⟩ => show win0_3.index t (1 : Fin 3) * 1 + 1 * 0 = 0; rw [e3]; rfl
    | ⟨2, _⟩ => show win0_3.index t (2 : Fin 3) * 512 + 1 * j.val = j.val; rw [e3]; show 0 * 512 + 1 * j.val = j.val; omega
  rw [he]
  exact V_kE m c (bOf t) 0 j

/-- The query column of start positions at point t, row q, is batch b's start position 16 p + q. -/
theorem blk_qS (t : Fin cfg0.N) (q : Fin 16) :
    (iblk m c 0 t : S1x16x1x1.Idx → BitVec 32) (ix4 (0 : Fin 1) q (0 : Fin 1) (0 : Fin 1))
      = (m ((c : Thread nD τ).loc main_arg0) : S2x512.Idx → BitVec 32) (ix2 (bOf t) (rowAt t q)) := by
  obtain ⟨e0, -, -, -, -, -, -, -, -, -, -⟩ := idx_facts t
  unfold iblk
  show (V m c main_v0 : S2x512x1x1.Idx → BitVec 32) (((cfg0.win 0).blk t).view.emb (ix4 (0 : Fin 1) q (0 : Fin 1) (0 : Fin 1))) = _
  have he : ((cfg0.win 0).blk t).view.emb (ix4 (0 : Fin 1) q (0 : Fin 1) (0 : Fin 1)) = ix4 (bOf t) (rowAt t q) (0 : Fin 1) (0 : Fin 1) := by
    funext a; apply Fin.ext
    match a with
    | ⟨0, _⟩ => show win0_0.index t (0 : Fin 4) * 1 + 1 * 0 = win0_7.index t 0; rw [e0]; show win0_7.index t 0 * 1 + 1 * 0 = win0_7.index t 0; omega
    | ⟨1, _⟩ => show win0_0.index t (1 : Fin 4) * 16 + 1 * q.val = win0_7.index t 1 * 16 + q.val; rw [e0]; show win0_7.index t 1 * 16 + 1 * q.val = win0_7.index t 1 * 16 + q.val; omega
    | ⟨2, _⟩ => show win0_0.index t (2 : Fin 4) * 1 + 1 * 0 = 0; rw [e0]; rfl
    | ⟨3, _⟩ => show win0_0.index t (3 : Fin 4) * 1 + 1 * 0 = 0; rw [e0]; rfl
  rw [he]
  exact V_qS m c (bOf t) (rowAt t q) 0 0

/-- The query column of end positions at point t, row q, is batch b's end position 16 p + q. -/
theorem blk_qE (t : Fin cfg0.N) (q : Fin 16) :
    (iblk m c 2 t : S1x16x1x1.Idx → BitVec 32) (ix4 (0 : Fin 1) q (0 : Fin 1) (0 : Fin 1))
      = (m ((c : Thread nD τ).loc main_arg1) : S2x512.Idx → BitVec 32) (ix2 (bOf t) (rowAt t q)) := by
  obtain ⟨-, -, e2, -, -, -, -, -, -, -, -⟩ := idx_facts t
  unfold iblk
  show (V m c main_v2 : S2x512x1x1.Idx → BitVec 32) (((cfg0.win 2).blk t).view.emb (ix4 (0 : Fin 1) q (0 : Fin 1) (0 : Fin 1))) = _
  have he : ((cfg0.win 2).blk t).view.emb (ix4 (0 : Fin 1) q (0 : Fin 1) (0 : Fin 1)) = ix4 (bOf t) (rowAt t q) (0 : Fin 1) (0 : Fin 1) := by
    funext a; apply Fin.ext
    match a with
    | ⟨0, _⟩ => show win0_2.index t (0 : Fin 4) * 1 + 1 * 0 = win0_7.index t 0; rw [e2]; show win0_7.index t 0 * 1 + 1 * 0 = win0_7.index t 0; omega
    | ⟨1, _⟩ => show win0_2.index t (1 : Fin 4) * 16 + 1 * q.val = win0_7.index t 1 * 16 + q.val; rw [e2]; show win0_7.index t 1 * 16 + 1 * q.val = win0_7.index t 1 * 16 + q.val; omega
    | ⟨2, _⟩ => show win0_2.index t (2 : Fin 4) * 1 + 1 * 0 = 0; rw [e2]; rfl
    | ⟨3, _⟩ => show win0_2.index t (3 : Fin 4) * 1 + 1 * 0 = 0; rw [e2]; rfl
  rw [he]
  exact V_qE m c (bOf t) (rowAt t q) 0 0

/-- The rectangle of trip k's load of a query position reads row k of the query column. -/
theorem qrow_idx (k : Fin k0_t1_loop.trips) :
    (Rect.unit (s := S1x16x1x1) (k0_off1 k) S1x1x1x1.size (k0_off1_inb k)).idx
        (ix4 (0 : Fin 1) (0 : Fin 1) (0 : Fin 1) (0 : Fin 1))
      = ix4 (0 : Fin 1) (⟨k.val, Nat.lt_of_lt_of_le k.isLt k0_t1_abs.2.1⟩ : Fin 16) (0 : Fin 1) (0 : Fin 1) := by
  have ho := k0_off1_eq k
  have o0 : (k0_off1 k) 0 = 0 := by rw [ho]; rfl
  have o1 : (k0_off1 k) 1 = k.val := by rw [ho]; rfl
  have o2 : (k0_off1 k) 2 = 0 := by rw [ho]; rfl
  have o3 : (k0_off1 k) 3 = 0 := by rw [ho]; rfl
  funext a; apply Fin.ext
  match a with
  | ⟨0, _⟩ => show (k0_off1 k) 0 + 1 * 0 = 0; omega
  | ⟨1, _⟩ => show (k0_off1 k) 1 + 1 * 0 = k.val; omega
  | ⟨2, _⟩ => show (k0_off1 k) 2 + 1 * 0 = 0; omega
  | ⟨3, _⟩ => show (k0_off1 k) 3 + 1 * 0 = 0; omega

/-- WHAT POINT t WRITES BACK is block t of the specification, where both position arrays name only table rows. -/
theorem flushed_eq (h0 : InTable (m ((c : Thread nD τ).loc main_arg0))) (h1 : InTable (m ((c : Thread nD τ).loc main_arg1)))
    (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))) := by
  rw [Cert.KernelIdeal.Value.flushed7]
  funext y
  obtain ⟨u, q, j, h, rfl⟩ : ∃ (u : Fin 1) (q : Fin 16) (j : Fin 512) (h : Fin 128), y = ix4 u q j h :=
    ⟨y 0, y 1, y 2, y 3, eq_ix4 y⟩
  obtain rfl : u = 0 := Subsingleton.elim _ _
  show outsAt0 m c t (ix4 (0 : Fin 1) q j h) = G _ _ _ _ _ _ (((cfg0.win 7).blk t).view.emb (ix4 (0 : Fin 1) q j h))
  have hemb : ((cfg0.win 7).blk t).view.emb (ix4 (0 : Fin 1) q j h) = ix4 (bOf t) (rowAt t q) j h := by
    obtain ⟨-, -, -, -, -, -, -, -, -, e72, e73⟩ := idx_facts t
    funext a; apply Fin.ext
    match a with
    | ⟨0, _⟩ => show win0_7.index t (0 : Fin 4) * 1 + 1 * 0 = win0_7.index t 0; omega
    | ⟨1, _⟩ => show win0_7.index t (1 : Fin 4) * 16 + 1 * q.val = win0_7.index t 1 * 16 + q.val; omega
    | ⟨2, _⟩ => show win0_7.index t (2 : Fin 4) * 512 + 1 * j.val = j.val; omega
    | ⟨3, _⟩ => show win0_7.index t (3 : Fin 4) * 128 + 1 * h.val = h.val; omega
  rw [hemb, G_apply]
  unfold outsAt0
  rw [out_block_apply]
  have wS : rowWord (View.ld (iblk m c 0 t) (Rect.unit (s := S1x16x1x1) (k0_off1 ⟨q.val, by rw [trips_eq]; exact q.isLt⟩) S1x1x1x1.size (k0_off1_inb _)))
      (k0_pay1 (iblk m c 1 t)) j = relWord (m ((c : Thread nD τ).loc main_arg0)) (bOf t) (rowAt t q) j := by
    unfold rowWord relWord
    have a1 : View.ld (iblk m c 0 t) (Rect.unit (s := S1x16x1x1) (k0_off1 ⟨q.val, by rw [trips_eq]; exact q.isLt⟩) S1x1x1x1.size (k0_off1_inb _))
        (ix4 (0 : Fin 1) (0 : Fin 1) (0 : Fin 1) (0 : Fin 1)) = (m ((c : Thread nD τ).loc main_arg0) : S2x512.Idx → BitVec 32) (ix2 (bOf t) (rowAt t q)) := by
      show iblk m c 0 t ((Rect.unit (s := S1x16x1x1) (k0_off1 ⟨q.val, _⟩) S1x1x1x1.size (k0_off1_inb _)).idx (ix4 (0 : Fin 1) (0 : Fin 1) (0 : Fin 1) (0 : Fin 1))) = _
      rw [qrow_idx]
      exact blk_qS m c t q
    have a2 : k0_pay1 (iblk m c 1 t) (ix2 (0 : Fin 1) j) = (m ((c : Thread nD τ).loc main_arg0) : S2x512.Idx → BitVec 32) (ix2 (bOf t) j) := by
      unfold k0_pay1
      exact (shapeCast_1ab_ab_apply _ _ (0 : Fin 1) j).trans (blk_kS m c t j)
    rw [a1, a2]
  have wE : rowWord (View.ld (iblk m c 2 t) (Rect.unit (s := S1x16x1x1) (k0_off1 ⟨q.val, by rw [trips_eq]; exact q.isLt⟩) S1x1x1x1.size (k0_off1_inb _)))
      (k0_pay2 (iblk m c 3 t)) j = relWord (m ((c : Thread nD τ).loc main_arg1)) (bOf t) (rowAt t q) j := by
    unfold rowWord relWord
    have a1 : View.ld (iblk m c 2 t) (Rect.unit (s := S1x16x1x1) (k0_off1 ⟨q.val, by rw [trips_eq]; exact q.isLt⟩) S1x1x1x1.size (k0_off1_inb _))
        (ix4 (0 : Fin 1) (0 : Fin 1) (0 : Fin 1) (0 : Fin 1)) = (m ((c : Thread nD τ).loc main_arg1) : S2x512.Idx → BitVec 32) (ix2 (bOf t) (rowAt t q)) := by
      show iblk m c 2 t ((Rect.unit (s := S1x16x1x1) (k0_off1 ⟨q.val, _⟩) S1x1x1x1.size (k0_off1_inb _)).idx (ix4 (0 : Fin 1) (0 : Fin 1) (0 : Fin 1) (0 : Fin 1))) = _
      rw [qrow_idx]
      exact blk_qE m c t q
    have a2 : k0_pay2 (iblk m c 3 t) (ix2 (0 : Fin 1) j) = (m ((c : Thread nD τ).loc main_arg1) : S2x512.Idx → BitVec 32) (ix2 (bOf t) j) := by
      unfold k0_pay2
      exact (shapeCast_1ab_ab_apply _ _ (0 : Fin 1) j).trans (blk_kE m c t j)
    rw [a1, a2]
  rw [pay7_apply _ _ _ _ _ _ _ j h (wS ▸ h0 (bOf t) (rowAt t q) j) (wE ▸ h1 (bOf t) (rowAt t q) j)]
  unfold Gat
  have tS : ∀ r : Fin 1025, k0_pay3 (iblk m c 4 t) (ix2 h r)
      = proj (m ((c : Thread nD τ).loc main_arg2)) (m ((c : Thread nD τ).loc main_arg6)) 0 r h := fun r => by
    unfold k0_pay3
    rw [shapeCast_self]
    exact blk_tabS m c t h r
  have tE : ∀ r : Fin 1025, k0_pay4 (iblk m c 5 t) (ix2 h r)
      = proj (m ((c : Thread nD τ).loc main_arg5)) (m ((c : Thread nD τ).loc main_arg6)) 1 r h := fun r => by
    unfold k0_pay4
    rw [shapeCast_self]
    exact blk_tabE m c t h r
  have tB : k0_pay5 (iblk m c 6 t) (ix2 h (0 : Fin 1))
      = (m ((c : Thread nD τ).loc main_arg7) : S128.Idx → EReal) (ix1 h) := by
    unfold k0_pay5
    rw [shapeCast_self]
    exact blk_bias m c t h
  refine congrArg₂ max (congrArg₂ (· + ·) (congrArg₂ (· + ·) ?_ ?_) tB) rfl
  · exact (tS _).trans (congrArg (fun w => proj (m ((c : Thread nD τ).loc main_arg2)) (m ((c : Thread nD τ).loc main_arg6)) 0 (rowOf w) h) wS)
  · exact (tE _).trans (congrArg (fun w => proj (m ((c : Thread nD τ).loc main_arg5)) (m ((c : Thread nD τ).loc main_arg6)) 1 (rowOf w) h) wE)

/-- An index of the result array is in point t's block iff each coordinate is in the block's range on its axis. -/
theorem mem_blk (t : Fin cfg0.N) (i : S2x512x512x128.Idx) :
    i ∈ ((cfg0.win 7).blk t).view.set ↔ ∀ a : Fin 4, win0_7.index t a * S1x16x512x128.size a ≤ (i a).val
      ∧ (i a).val < win0_7.index t a * S1x16x512x128.size a + S1x16x512x128.size a := by
  show i ∈ ((View.whole main_v15).slice (win0_7.rect t)).set ↔ _
  rw [View.set_slice_whole, Rect.mem_set_unit]
  exact Iff.rfl

/-- Every index of the result array lies in the block of the point that handles its batch and its row block. -/
theorem cover (i : S2x512x512x128.Idx) :
    ∃ t : Fin cfg0.N, (cfg0.win 7).flush t = true ∧ i ∈ ((cfg0.win 7).blk t).view.set := by
  have hi0 : (i 0).val < 2 := (i 0).isLt
  have hi1 : (i 1).val < 512 := (i 1).isLt
  have hi2 : (i 2).val < 512 := (i 2).isLt
  have hi3 : (i 3).val < 128 := (i 3).isLt
  obtain ⟨t, ht⟩ := idx_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 512 ≤ (i 2).val ∧ (i 2).val < win0_7.index t (2 : Fin 4) * 512 + 512; omega
  | ⟨3, _⟩ => show win0_7.index t (3 : Fin 4) * 128 ≤ (i 3).val ∧ (i 3).val < win0_7.index t (3 : Fin 4) * 128 + 128; omega

/-- THE RESULT ARRAY after the run is the specification of the argument arrays. -/
theorem arr_eq_G (h0 : InTable (m ((c : Thread nD τ).loc main_arg0))) (h1 : InTable (m ((c : Thread nD τ).loc main_arg1))) :
    (dats m 0 c).arrAt 7 cfg0.N = G (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) :=
  (dats m 0 c).arrAt_eq_of_cover 7 _ (fun t _ => flushed_eq m c h0 h1 t) cover

/-- The kernel's run, read: every weakly fair execution ends with the result array at the specification and the
    arguments unchanged, where both position arrays name only table rows. -/
theorem run (ρ : Dev nD → PrngReg)
    (hrows : ∀ c : Dev nD, InTable (m ((c : Thread nD τ).loc main_arg0)) ∧ InTable (m ((c : Thread nD τ).loc main_arg1))) :
    θ_run defs (onTc (τ := τ) (main (F := Ideal))) ⟨m, fun _ => 0, ρ⟩ fun r => ∀ c : Dev nD,
      r.2.mem ((c : Thread nD τ).loc main_v15) = G (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (arr_eq_G m c (hrows c).1 (hrows c).2), (h c).2⟩)
    (Cert.KernelIdeal.Value.run_blocks m ρ)

end Cert.RelPos.KernelSide

end
-- ==== Proof.lean ====
/-
  Relative-position embedding (two table lookups, concatenation, a linear layer and a cut-off at zero) computed by a
  kernel that folds the linear layer into the tables and looks rows up by a product with an indicator matrix, against
  the plain gather-concatenate-multiply reference: the two are equal over the extended reals wherever every offset
  relative position pos[b,i] - pos[b,j] + 512 is a row of the 1025-row tables.

  Both programs index the tables with the same 32-bit word. The kernel clips the word to [0, 1024]; the reference adds
  1025 to a negative word and its gather then clamps. On a row of the table all three do nothing, so both read row
  word of each table. A row followed by a linear map is the linear map applied to the table followed by the row: the
  kernel's sum over the 1025 rows of (table with the layer applied) times the indicator of the row picks the one term
  (x * 0 = 0 and x * 1 = x for every extended real x, so no finiteness is used), and the reference's sum over the 256
  concatenated columns splits into the first table's 128 columns and the second's. The bias and the maximum with zero
  are the same on both sides.

  The kernel's grid point (b, p, 0) writes the block of batch b, query rows 16 p .. 16 p + 15, one [512, 128] slab per
  query row in a loop of sixteen trips; the 64 blocks tile the result. The modules: Spec (the function and the two
  facts about sums), PreRows (the precondition read back), RefValue (the reference is the function), KernelTables (the
  operands the host prepares), PayValue (one query row's arithmetic at an index), BlockValue (the sixteen slabs of a
  block), ArrValue (the blocks tile the array), and the claims below.
-/
import proofs.«430832_j35029753266234_3_alg».proof.Defs
import proofs.«430832_j35029753266234_3_alg».proof.Proof.Gen.Kernel
import proofs.«430832_j35029753266234_3_alg».proof.Proof.Gen.Kernel.Skeleton
import proofs.«430832_j35029753266234_3_alg».proof.Proof.Gen.Kernel.Loops
import proofs.«430832_j35029753266234_3_alg».proof.Proof.Gen.Kernel.Launch
import proofs.«430832_j35029753266234_3_alg».proof.Proof.Gen.Kernel.Points
import proofs.«430832_j35029753266234_3_alg».proof.Proof.Gen.Kernel.Frame
import proofs.«430832_j35029753266234_3_alg».proof.Proof.Gen.KernelIdeal
import proofs.«430832_j35029753266234_3_alg».proof.Proof.Gen.KernelIdeal.Skeleton
import proofs.«430832_j35029753266234_3_alg».proof.Proof.Gen.KernelIdeal.Loops
import proofs.«430832_j35029753266234_3_alg».proof.Proof.Gen.KernelIdeal.Launch
import proofs.«430832_j35029753266234_3_alg».proof.Proof.Gen.KernelIdeal.Points
import proofs.«430832_j35029753266234_3_alg».proof.Proof.Gen.KernelIdeal.Frame
import proofs.«430832_j35029753266234_3_alg».proof.Proof.Gen.ReferenceIdeal
import proofs.«430832_j35029753266234_3_alg».proof.Proof.Gen.Pre_finite_inputs
import proofs.«430832_j35029753266234_3_alg».proof.Proof.Gen.KernelIdeal.Value
import proofs.«430832_j35029753266234_3_alg».proof.Proof.Gen.ReferenceIdeal.Run
import proofs.«430832_j35029753266234_3_alg».proof.Proof.Gen.ReferenceIdeal.Read
import proofs.«430832_j35029753266234_3_alg».proof.Proof.Spec
import proofs.«430832_j35029753266234_3_alg».proof.Proof.PreRows
import proofs.«430832_j35029753266234_3_alg».proof.Proof.RefValue
import proofs.«430832_j35029753266234_3_alg».proof.Proof.ArrValue
import Idealize.ShloMosaic.Adequacy
import Idealize.ShloMosaic.Init

noncomputable section

namespace Cert.Proof

open Idealize.ShloMosaic Idealize.ShloMosaic.TcCoe Idealize.SL.Sem Cert.RelPos

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, the kernel's result array and the
    reference's are the same function of the arguments. -/
theorem algebraic : Cert.algebraic_KernelIdeal_ReferenceIdeal := by
  intro m ρ m' ρ' hpre hagree
  have hrows : ∀ c : Dev Cert.KernelIdeal.nD,
      InTable (m ((c : Thread Cert.KernelIdeal.nD Cert.KernelIdeal.τ).loc Cert.KernelIdeal.main_arg0))
      ∧ InTable (m ((c : Thread Cert.KernelIdeal.nD Cert.KernelIdeal.τ).loc Cert.KernelIdeal.main_arg1)) :=
    fun c => inTable_of_pre _ _ _ _ _ _ _ _ (hpre c)
  refine ⟨_, Cert.RelPos.KernelSide.run m ρ hrows, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.2.2.1,
    (hagree c).2.2.2.2.2.2.1, (hagree c).2.2.2.2.2.2.2]
  exact ref_eq_G _ _ _ _ _ _ (hrows c).1 (hrows c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
